-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_v92) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S4x16384x512 : Shape := ⟨3, ![4, 16384, 512]⟩
abbrev S4x512x512 : Shape := ⟨3, ![4, 512, 512]⟩
abbrev S4x512 : Shape := ⟨2, ![4, 512]⟩
abbrev S512 : Shape := ⟨1, ![512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S4x16384x512 : S_.BroadcastsInDim S4x16384x512 (![] : Fin 0 → Fin S4x16384x512.rank)
  reducesTo_S4x16384x512_S_d0_1_2 : S4x16384x512.ReducesTo [0, 1, 2] S_
  bcast_S_S4x512x512 : S_.BroadcastsInDim S4x512x512 (![] : Fin 0 → Fin S4x512x512.rank)
  reducesTo_S4x512x512_S_d0_1_2 : S4x512x512.ReducesTo [0, 1, 2] S_
  bcast_S_S4x512 : S_.BroadcastsInDim S4x512 (![] : Fin 0 → Fin S4x512.rank)
  reducesTo_S4x512_S_d0_1 : S4x512.ReducesTo [0, 1] S_
  bcast_S_S512 : S_.BroadcastsInDim S512 (![] : Fin 0 → Fin S512.rank)
  reducesTo_S512_S_d0 : S512.ReducesTo [0] S_

variable [Facts]

def fn_part4 {F : FTy → Type} [FloatOps F] (main_arg14 : FVec F S512 .f32) (main_v63 : IVec S_ 1) (main_v67 : IVec S_ 1) : IVec S_ 1 :=
  let main_v68 : IVec S_ 1 := andi main_v63 main_v67
  let main_v69 : FVec F S512 .f32 := Host.absf main_arg14
  let main_cst_26 : FVec F S_ .f32 := constant S_ .f32 0x7F800000#32
  let main_v70 : FVec F S512 .f32 := broadcastInDim S512 ![] bcast_S_S512 main_cst_26
  let main_v71 : IVec S512 1 := cmpf .olt main_v69 main_v70
  let main_c_27 : IVec S_ 1 := constantI S_ 1 1#1
  let main_v72 : IVec S_ 1 := (fun x v => Host.reduce IntOp.andi x v reducesTo_S512_S_d0 h_S_) main_v71 main_c_27
  let main_v73 : IVec S_ 1 := andi main_v68 main_v72
  main_v73

def fn_part3 {F : FTy → Type} [FloatOps F] (main_arg11 : FVec F S4x512 .f32) (main_arg12 : FVec F S4x512 .f32) (main_arg13 : FVec F S512 .f32) (main_arg14 : FVec F S512 .f32) (main_v48 : IVec S_ 1) (main_v49 : FVec F S4x512 .f32) (main_v50 : FVec F S4x512 .f32) : IVec S_ 1 :=
  let main_v51 : IVec S4x512 1 := cmpf .olt main_v49 main_v50
  let main_c_19 : IVec S_ 1 := constantI S_ 1 1#1
  let main_v52 : IVec S_ 1 := (fun x v => Host.reduce IntOp.andi x v reducesTo_S4x512_S_d0_1 h_S_) main_v51 main_c_19
  let main_v53 : IVec S_ 1 := andi main_v48 main_v52
  let main_v54 : FVec F S4x512 .f32 := Host.absf main_arg11
  let main_cst_20 : FVec F S_ .f32 := constant S_ .f32 0x7F800000#32
  let main_v55 : FVec F S4x512 .f32 := broadcastInDim S4x512 ![] bcast_S_S4x512 main_cst_20
  let main_v56 : IVec S4x512 1 := cmpf .olt main_v54 main_v55
  let main_c_21 : IVec S_ 1 := constantI S_ 1 1#1
  let main_v57 : IVec S_ 1 := (fun x v => Host.reduce IntOp.andi x v reducesTo_S4x512_S_d0_1 h_S_) main_v56 main_c_21
  let main_v58 : IVec S_ 1 := andi main_v53 main_v57
  let main_v59 : FVec F S4x512 .f32 := Host.absf main_arg12
  let main_cst_22 : FVec F S_ .f32 := constant S_ .f32 0x7F800000#32
  let main_v60 : FVec F S4x512 .f32 := broadcastInDim S4x512 ![] bcast_S_S4x512 main_cst_22
  let main_v61 : IVec S4x512 1 := cmpf .olt main_v59 main_v60
  let main_c_23 : IVec S_ 1 := constantI S_ 1 1#1
  let main_v62 : IVec S_ 1 := (fun x v => Host.reduce IntOp.andi x v reducesTo_S4x512_S_d0_1 h_S_) main_v61 main_c_23
  let main_v63 : IVec S_ 1 := andi main_v58 main_v62
  let main_v64 : FVec F S512 .f32 := Host.absf main_arg13
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_arg14 main_v63 main_v67

def fn_part2 {F : FTy → Type} [FloatOps F] (main_arg7 : FVec F S4x512 .f32) (main_arg8 : FVec F S4x512 .f32) (main_arg9 : FVec F S4x512 .f32) (main_arg10 : FVec F S4x512 .f32) (main_arg11 : FVec F S4x512 .f32) (main_arg12 : FVec F S4x512 .f32) (main_arg13 : FVec F S512 .f32) (main_arg14 : FVec F S512 .f32) (main_v33 : IVec S_ 1) : IVec S_ 1 :=
  let main_v34 : FVec F S4x512 .f32 := Host.absf main_arg7
  let main_cst_12 : FVec F S_ .f32 := constant S_ .f32 0x7F800000#32
  let main_v35 : FVec F S4x512 .f32 := broadcastInDim S4x512 ![] bcast_S_S4x512 main_cst_12
  let main_v36 : IVec S4x512 1 := cmpf .olt main_v34 main_v35
  let main_c_13 : IVec S_ 1 := constantI S_ 1 1#1
  let main_v37 : IVec S_ 1 := (fun x v => Host.reduce IntOp.andi x v reducesTo_S4x512_S_d0_1 h_S_) main_v36 main_c_13
  let main_v38 : IVec S_ 1 := andi main_v33 main_v37
  let main_v39 : FVec F S4x512 .f32 := Host.absf main_arg8
  let main_cst_14 : FVec F S_ .f32 := constant S_ .f32 0x7F800000#32
  let main_v40 : FVec F S4x512 .f32 := broadcastInDim S4x512 ![] bcast_S_S4x512 main_cst_14
  let main_v41 : IVec S4x512 1 := cmpf .olt main_v39 main_v40
  let main_c_15 : IVec S_ 1 := constantI S_ 1 1#1
  let main_v42 : IVec S_ 1 := (fun x v => Host.reduce IntOp.andi x v reducesTo_S4x512_S_d0_1 h_S_) main_v41 main_c_15
  let main_v43 : IVec S_ 1 := andi main_v38 main_v42
  let main_v44 : FVec F S4x512 .f32 := Host.absf main_arg9
  let main_cst_16 : FVec F S_ .f32 := constant S_ .f32 0x7F800000#32
  let main_v45 : FVec F S4x512 .f32 := broadcastInDim S4x512 ![] bcast_S_S4x512 main_cst_16
  let main_v46 : IVec S4x512 1 := cmpf .olt main_v44 main_v45
  let main_c_17 : IVec S_ 1 := constantI S_ 1 1#1
  let main_v47 : IVec S_ 1 := (fun x v => Host.reduce IntOp.andi x v reducesTo_S4x512_S_d0_1 h_S_) main_v46 main_c_17
  let main_v48 : IVec S_ 1 := andi main_v43 main_v47
  let main_v49 : FVec F S4x512 .f32 := Host.absf main_arg10
  let main_cst_18 : FVec F S_ .f32 := constant S_ .f32 0x7F800000#32
  let main_v50 : FVec F S4x512 .f32 := broadcastInDim S4x512 ![] bcast_S_S4x512 main_cst_18
  fn_part3 (F := F) main_arg11 main_arg12 main_arg13 main_arg14 main_v48 main_v49 main_v50

def fn_part1 {F : FTy → Type} [FloatOps F] (main_arg4 : FVec F S4x16384x512 .f32) (main_arg5 : FVec F S4x512x512 .f32) (main_arg6 : FVec F S4x512x512 .f32) (main_arg7 : FVec F S4x512 .f32) (main_arg8 : FVec F S4x512 .f32) (main_arg9 : FVec F S4x512 .f32) (main_arg10 : FVec F S4x512 .f32) (main_arg11 : FVec F S4x512 .f32) (main_arg12 : FVec F S4x512 .f32) (main_arg13 : FVec F S512 .f32) (main_arg14 : FVec F S512 .f32) (main_v13 : IVec S_ 1) (main_v16 : IVec S4x16384x512 1) : IVec S_ 1 :=
  let main_c_5 : IVec S_ 1 := constantI S_ 1 1#1
  let main_v17 : IVec S_ 1 := (fun x v => Host.reduce IntOp.andi x v reducesTo_S4x16384x512_S_d0_1_2 h_S_) main_v16 main_c_5
  let main_v18 : IVec S_ 1 := andi main_v13 main_v17
  let main_v19 : FVec F S4x16384x512 .f32 := Host.absf main_arg4
  let main_cst_6 : FVec F S_ .f32 := constant S_ .f32 0x7F800000#32
  let main_v20 : FVec F S4x16384x512 .f32 := broadcastInDim S4x16384x512 ![] bcast_S_S4x16384x512 main_cst_6
  let main_v21 : IVec S4x16384x512 1 := cmpf .olt main_v19 main_v20
  let main_c_7 : IVec S_ 1 := constantI S_ 1 1#1
  let main_v22 : IVec S_ 1 := (fun x v => Host.reduce IntOp.andi x v reducesTo_S4x16384x512_S_d0_1_2 h_S_) main_v21 main_c_7
  let main_v23 : IVec S_ 1 := andi main_v18 main_v22
  let main_v24 : FVec F S4x512x512 .f32 := Host.absf main_arg5
  let main_cst_8 : FVec F S_ .f32 := constant S_ .f32 0x7F800000#32
  let main_v25 : FVec F S4x512x512 .f32 := broadcastInDim S4x512x512 ![] bcast_S_S4x512x512 main_cst_8
  let main_v26 : IVec S4x512x512 1 := cmpf .olt main_v24 main_v25
  let main_c_9 : IVec S_ 1 := constantI S_ 1 1#1
  let main_v27 : IVec S_ 1 := (fun x v => Host.reduce IntOp.andi x v reducesTo_S4x512x512_S_d0_1_2 h_S_) main_v26 main_c_9
  let main_v28 : IVec S_ 1 := andi main_v23 main_v27
  let main_v29 : FVec F S4x512x512 .f32 := Host.absf main_arg6
  let main_cst_10 : FVec F S_ .f32 := constant S_ .f32 0x7F800000#32
  let main_v30 : FVec F S4x512x512 .f32 := broadcastInDim S4x512x512 ![] bcast_S_S4x512x512 main_cst_10
  let main_v31 : IVec S4x512x512 1 := cmpf .olt main_v29 main_v30
  let main_c_11 : IVec S_ 1 := constantI S_ 1 1#1
  let main_v32 : IVec S_ 1 := (fun x v => Host.reduce IntOp.andi x v reducesTo_S4x512x512_S_d0_1_2 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S16384x512 .f32) (main_arg1 : FVec F S16384x512 .f32) (main_arg2 : FVec F S16384x512 .f32) (main_arg3 : FVec F S4x16384x512 .f32) (main_arg4 : FVec F S4x16384x512 .f32) (main_arg5 : FVec F S4x512x512 .f32) (main_arg6 : FVec F S4x512x512 .f32) (main_arg7 : FVec F S4x512 .f32) (main_arg8 : FVec F S4x512 .f32) (main_arg9 : FVec F S4x512 .f32) (main_arg10 : FVec F S4x512 .f32) (main_arg11 : FVec F S4x512 .f32) (main_arg12 : FVec F S4x512 .f32) (main_arg13 : FVec F S512 .f32) (main_arg14 : FVec F S512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S16384x512 .f32 := Host.absf main_arg2
  let main_cst_2 : FVec F S_ .f32 := constant S_ .f32 0x7F800000#32
  let main_v10 : FVec F S16384x512 .f32 := broadcastInDim S16384x512 ![] bcast_S_S16384x512 main_cst_2
  let main_v11 : IVec S16384x512 1 := cmpf .olt main_v9 main_v10
  let main_c_3 : IVec S_ 1 := constantI S_ 1 1#1
  let main_v12 : IVec S_ 1 := (fun x v => Host.reduce IntOp.andi x v reducesTo_S16384x512_S_d0_1 h_S_) main_v11 main_c_3
  let main_v13 : IVec S_ 1 := andi main_v8 main_v12
  let main_v14 : FVec F S4x16384x512 .f32 := Host.absf main_arg3
  let main_cst_4 : FVec F S_ .f32 := constant S_ .f32 0x7F800000#32
  let main_v15 : FVec F S4x16384x512 .f32 := broadcastInDim S4x16384x512 ![] bcast_S_S4x16384x512 main_cst_4
  let main_v16 : IVec S4x16384x512 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S16384x512 : Shape := ⟨2, ![16384, 512]⟩
abbrev S4x16384x512 : Shape := ⟨3, ![4, 16384, 512]⟩
abbrev S4x512x512 : Shape := ⟨3, ![4, 512, 512]⟩
abbrev S4x512 : Shape := ⟨2, ![4, 512]⟩
abbrev S512 : Shape := ⟨1, ![512]⟩
abbrev S256x512 : Shape := ⟨2, ![256, 512]⟩
abbrev S4x256x512 : Shape := ⟨3, ![4, 256, 512]⟩
abbrev S1x256x512 : Shape := ⟨3, ![1, 256, 512]⟩
abbrev S1x512x512 : Shape := ⟨3, ![1, 512, 512]⟩
abbrev S512x512 : Shape := ⟨2, ![512, 512]⟩
abbrev S1x512 : Shape := ⟨2, ![1, 512]⟩
abbrev S256 : Shape := ⟨1, ![256]⟩
abbrev S256x1 : Shape := ⟨2, ![256, 1]⟩

abbrev nBuf : Space → Nat
  | .hbm => 19
  | .vmem => 24
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S4x16384x512, .f32⟩
  | .hbm, ⟨4, _⟩ => ⟨S4x16384x512, .f32⟩
  | .hbm, ⟨5, _⟩ => ⟨S4x512x512, .f32⟩
  | .hbm, ⟨6, _⟩ => ⟨S4x512x512, .f32⟩
  | .hbm, ⟨7, _⟩ => ⟨S4x512, .f32⟩
  | .hbm, ⟨8, _⟩ => ⟨S4x512, .f32⟩
  | .hbm, ⟨9, _⟩ => ⟨S4x512, .f32⟩
  | .hbm, ⟨10, _⟩ => ⟨S4x512, .f32⟩
  | .hbm, ⟨11, _⟩ => ⟨S4x512, .f32⟩
  | .hbm, ⟨12, _⟩ => ⟨S4x512, .f32⟩
  | .hbm, ⟨13, _⟩ => ⟨S512, .f32⟩
  | .hbm, ⟨14, _⟩ => ⟨S512, .f32⟩
  | .hbm, ⟨15, _⟩ => ⟨S4x512x512, .f32⟩
  | .hbm, ⟨16, _⟩ => ⟨S4x512x512, .f32⟩
  | .hbm, ⟨17, _⟩ => ⟨S16384x512, .f32⟩
  | .hbm, ⟨18, _⟩ => ⟨S16384x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S4x256x512, .f32⟩
  | .local _ .vmem, ⟨7, _⟩ => ⟨S4x256x512, .f32⟩
  | .local _ .vmem, ⟨8, _⟩ => ⟨S4x256x512, .f32⟩
  | .local _ .vmem, ⟨9, _⟩ => ⟨S4x256x512, .f32⟩
  | .local _ .vmem, ⟨10, _⟩ => ⟨S4x512x512, .f32⟩
  | .local _ .vmem, ⟨11, _⟩ => ⟨S4x512x512, .f32⟩
  | .local _ .vmem, ⟨12, _⟩ => ⟨S4x512, .f32⟩
  | .local _ .vmem, ⟨13, _⟩ => ⟨S4x512, .f32⟩
  | .local _ .vmem, ⟨14, _⟩ => ⟨S4x512, .f32⟩
  | .local _ .vmem, ⟨15, _⟩ => ⟨S4x512, .f32⟩
  | .local _ .vmem, ⟨16, _⟩ => ⟨S4x512, .f32⟩
  | .local _ .vmem, ⟨17, _⟩ => ⟨S4x512, .f32⟩
  | .local _ .vmem, ⟨18, _⟩ => ⟨S512, .f32⟩
  | .local _ .vmem, ⟨19, _⟩ => ⟨S512, .f32⟩
  | .local _ .vmem, ⟨20, _⟩ => ⟨S256x512, .f32⟩
  | .local _ .vmem, ⟨21, _⟩ => ⟨S256x512, .f32⟩
  | .local _ .vmem, ⟨22, _⟩ => ⟨S256x512, .f32⟩
  | .local _ .vmem, ⟨23, _⟩ => ⟨S256x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2_0 : Ref sig .tc := ⟨.hbm, 17, rfl⟩
abbrev main_v2_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem15_1 : DmaSem sig := 21
abbrev cc0_sem16_0 : DmaSem sig := 22
abbrev cc0_sem16_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  transposes_S4x512x512_S4x512x512_0_2_1 : S4x512x512.Transposes [0, 2, 1] S4x512x512
  inb_S256x512_S256x512_0_0 : ∀ a, (![0, 0] : Fin 2 → Nat) a + S256x512.size a ≤ S256x512.size a
  h_S256x512 : 0 < S256x512.numel
  inb_S4x256x512_S1x256x512_0_0_0 : ∀ a, (![0, 0, 0] : Fin 3 → Nat) a + S1x256x512.size a ≤ S4x256x512.size a
  h_S1x256x512 : 0 < S1x256x512.numel
  shapeCasts_S1x256x512_S256x512 : S1x256x512.ShapeCasts S256x512
  bitsLt_bf16_f32 : FTy.bits .bf16 < FTy.bits .f32
  inb_S4x512x512_S1x512x512_0_0_0 : ∀ a, (![0, 0, 0] : Fin 3 → Nat) a + S1x512x512.size a ≤ S4x512x512.size a
  h_S1x512x512 : 0 < S1x512x512.numel
  shapeCasts_S1x512x512_S512x512 : S1x512x512.ShapeCasts S512x512
  inb_S4x512_S1x512_0_0 : ∀ a, (![0, 0] : Fin 2 → Nat) a + S1x512.size a ≤ S4x512.size a
  h_S1x512 : 0 < S1x512.numel
  shapeCasts_S1x512_S512 : S1x512.ShapeCasts S512
  reduces_S256x512_S256 : S256x512.Reduces [1] S256
  shapeCasts_S256_S256x1 : S256.ShapeCasts S256x1
  broadcasts_S256x1_S256x512 : S256x1.Broadcasts S256x512
  shapeCasts_S512_S1x512 : S512.ShapeCasts S1x512
  broadcasts_S1x512_S256x512 : S1x512.Broadcasts S256x512
  inb_S4x256x512_S1x256x512_1_0_0 : ∀ a, (![1, 0, 0] : Fin 3 → Nat) a + S1x256x512.size a ≤ S4x256x512.size a
  inb_S4x512x512_S1x512x512_1_0_0 : ∀ a, (![1, 0, 0] : Fin 3 → Nat) a + S1x512x512.size a ≤ S4x512x512.size a
  inb_S4x512_S1x512_1_0 : ∀ a, (![1, 0] : Fin 2 → Nat) a + S1x512.size a ≤ S4x512.size a
  inb_S4x256x512_S1x256x512_2_0_0 : ∀ a, (![2, 0, 0] : Fin 3 → Nat) a + S1x256x512.size a ≤ S4x256x512.size a
  inb_S4x512x512_S1x512x512_2_0_0 : ∀ a, (![2, 0, 0] : Fin 3 → Nat) a + S1x512x512.size a ≤ S4x512x512.size a
  inb_S4x512_S1x512_2_0 : ∀ a, (![2, 0] : Fin 2 → Nat) a + S1x512.size a ≤ S4x512.size a
  inb_S4x256x512_S1x256x512_3_0_0 : ∀ a, (![3, 0, 0] : Fin 3 → Nat) a + S1x256x512.size a ≤ S4x256x512.size a
  inb_S4x512x512_S1x512x512_3_0_0 : ∀ a, (![3, 0, 0] : Fin 3 → Nat) a + S1x512x512.size a ≤ S4x512x512.size a
  inb_S4x512_S1x512_3_0 : ∀ a, (![3, 0] : Fin 2 → Nat) a + S1x512.size a ≤ S4x512.size a
  inb_S512_S512_0 : ∀ a, (![0] : Fin 1 → Nat) a + S512.size a ≤ S512.size a
  h_S512 : 0 < S512.numel
  dot_S256x512_S512x512_S256x512_1_0_0_1_n_n_wf : DotDims.WF S256x512 S512x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S16384x512.size a
  hwx0_0 : ∀ i : grid0.Coords, EltTy.bits .f32 = 32 ∨ (Rect.block (s := S16384x512) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S16384x512.size a
  hwx0_1 : ∀ i : grid0.Coords, EltTy.bits .f32 = 32 ∨ (Rect.block (s := S16384x512) S256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S16384x512.size a
  hwx0_2 : ∀ i : grid0.Coords, EltTy.bits .f32 = 32 ∨ (Rect.block (s := S16384x512) S256x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x256x512.size a ≤ S4x16384x512.size a
  hwx0_3 : ∀ i : grid0.Coords, EltTy.bits .f32 = 32 ∨ (Rect.block (s := S4x16384x512) S4x256x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x256x512.size a ≤ S4x16384x512.size a
  hwx0_4 : ∀ i : grid0.Coords, EltTy.bits .f32 = 32 ∨ (Rect.block (s := S4x16384x512) S4x256x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x512x512.size a ≤ S4x512x512.size a
  hwx0_5 : ∀ i : grid0.Coords, EltTy.bits .f32 = 32 ∨ (Rect.block (s := S4x512x512) S4x512x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4x512x512.size a ≤ S4x512x512.size a
  hwx0_6 : ∀ i : grid0.Coords, EltTy.bits .f32 = 32 ∨ (Rect.block (s := S4x512x512) S4x512x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4x512.size a ≤ S4x512.size a
  hwx0_7 : ∀ i : grid0.Coords, EltTy.bits .f32 = 32 ∨ (Rect.block (s := S4x512) S4x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S4x512.size a ≤ S4x512.size a
  hwx0_8 : ∀ i : grid0.Coords, EltTy.bits .f32 = 32 ∨ (Rect.block (s := S4x512) S4x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S4x512.size a ≤ S4x512.size a
  hwx0_9 : ∀ i : grid0.Coords, EltTy.bits .f32 = 32 ∨ (Rect.block (s := S4x512) S4x512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S4x512.size a ≤ S4x512.size a
  hwx0_10 : ∀ i : grid0.Coords, EltTy.bits .f32 = 32 ∨ (Rect.block (s := S4x512) S4x512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S4x512.size a ≤ S4x512.size a
  hwx0_11 : ∀ i : grid0.Coords, EltTy.bits .f32 = 32 ∨ (Rect.block (s := S4x512) S4x512.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S4x512.size a ≤ S4x512.size a
  hwx0_12 : ∀ i : grid0.Coords, EltTy.bits .f32 = 32 ∨ (Rect.block (s := S4x512) S4x512.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S512.size a ≤ S512.size a
  hwx0_13 : ∀ i : grid0.Coords, EltTy.bits .f32 = 32 ∨ (Rect.block (s := S512) S512.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S512.size a ≤ S512.size a
  hwx0_14 : ∀ i : grid0.Coords, EltTy.bits .f32 = 32 ∨ (Rect.block (s := S512) S512.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S256x512.size a ≤ S16384x512.size a
  hwx0_15 : ∀ i : grid0.Coords, EltTy.bits .f32 = 32 ∨ (Rect.block (s := S16384x512) S256x512.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S256x512.size a ≤ S16384x512.size a
  hwx0_16 : ∀ i : grid0.Coords, EltTy.bits .f32 = 32 ∨ (Rect.block (s := S16384x512) S256x512.size (cc0_transform_16 i) (hinb0_16 i)).WholeWords (EltTy.packing .f32)

variable [Facts₀]

def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4x256x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S4x256x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S4x512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S4x512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S4x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S4x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S4x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S4x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S4x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S4x512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S512.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S512.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v2_0) S256x512.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v2_1) S256x512.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S16384x512 : Shape := ⟨2, ![16384, 512]⟩
abbrev S4x16384x512 : Shape := ⟨3, ![4, 16384, 512]⟩
abbrev S4x512x512 : Shape := ⟨3, ![4, 512, 512]⟩
abbrev S4x512 : Shape := ⟨2, ![4, 512]⟩
abbrev S512 : Shape := ⟨1, ![512]⟩
abbrev S1x16384x512 : Shape := ⟨3, ![1, 16384, 512]⟩
abbrev S4x1x512 : Shape := ⟨3, ![4, 1, 512]⟩
abbrev S_ : Shape := ⟨0, ![]⟩
abbrev S4x16384 : Shape := ⟨2, ![4, 16384]⟩
abbrev S4x16384x1 : Shape := ⟨3, ![4, 16384, 1]⟩
abbrev S16384 : Shape := ⟨1, ![16384]⟩
abbrev S16384x1 : Shape := ⟨2, ![16384, 1]⟩
abbrev S1x512 : Shape := ⟨2, ![1, 512]⟩

abbrev nBuf : Space → Nat
  | .hbm => 155
  | .vmem => 0
  | .smem => 0
  | _ => 0

abbrev hbmTy0_0 (i : Nat) : BufTy := match i % 128 with
  | 0 => ⟨S16384x512, .f32⟩
  | 1 => ⟨S16384x512, .f32⟩
  | 2 => ⟨S16384x512, .f32⟩
  | 3 => ⟨S4x16384x512, .f32⟩
  | 4 => ⟨S4x16384x512, .f32⟩
  | 5 => ⟨S4x512x512, .f32⟩
  | 6 => ⟨S4x512x512, .f32⟩
  | 7 => ⟨S4x512, .f32⟩
  | 8 => ⟨S4x512, .f32⟩
  | 9 => ⟨S4x512, .f32⟩
  | 10 => ⟨S4x512, .f32⟩
  | 11 => ⟨S4x512, .f32⟩
  | 12 => ⟨S4x512, .f32⟩
  | 13 => ⟨S512, .f32⟩
  | 14 => ⟨S512, .f32⟩
  | 15 => ⟨S1x16384x512, .f32⟩
  | 16 => ⟨S4x16384x512, .f32⟩
  | 17 => ⟨S4x16384x512, .f32⟩
  | 18 => ⟨S4x16384x512, .f32⟩
  | 19 => ⟨S1x16384x512, .f32⟩
  | 20 => ⟨S4x16384x512, .f32⟩
  | 21 => ⟨S4x16384x512, .f32⟩
  | 22 => ⟨S4x16384x512, .f32⟩
  | 23 => ⟨S4x1x512, .f32⟩
  | 24 => ⟨S4x1x512, .f32⟩
  | 25 => ⟨S_, .f32⟩
  | 26 => ⟨S4x16384, .f32⟩
  | 27 => ⟨S4x16384x1, .f32⟩
  | 28 => ⟨S_, .f32⟩
  | 29 => ⟨S4x16384x1, .f32⟩
  | 30 => ⟨S4x16384x1, .f32⟩
  | 31 => ⟨S4x16384x512, .f32⟩
  | 32 => ⟨S4x16384x512, .f32⟩
  | 33 => ⟨S4x16384x512, .f32⟩
  | 34 => ⟨S_, .f32⟩
  | 35 => ⟨S4x16384, .f32⟩
  | 36 => ⟨S4x16384x1, .f32⟩
  | 37 => ⟨S_, .f32⟩
  | 38 => ⟨S4x16384x1, .f32⟩
  | 39 => ⟨S4x16384x1, .f32⟩
  | 40 => ⟨S4x16384x512, .f32⟩
  | 41 => ⟨S4x16384x512, .f32⟩
  | 42 => ⟨S_, .f32⟩
  | 43 => ⟨S4x16384x1, .f32⟩
  | 44 => ⟨S4x16384x1, .f32⟩
  | 45 => ⟨S4x16384x1, .f32⟩
  | 46 => ⟨S4x16384x512, .f32⟩
  | 47 => ⟨S4x16384x512, .f32⟩
  | 48 => ⟨S4x16384x512, .f32⟩
  | 49 => ⟨S4x16384x512, .f32⟩
  | 50 => ⟨S4x16384x512, .f32⟩
  | 51 => ⟨S4x16384x512, .f32⟩
  | 52 => ⟨S4x1x512, .f32⟩
  | 53 => ⟨S4x1x512, .f32⟩
  | 54 => ⟨S_, .f32⟩
  | 55 => ⟨S4x16384, .f32⟩
  | 56 => ⟨S4x16384x1, .f32⟩
  | 57 => ⟨S_, .f32⟩
  | 58 => ⟨S4x16384x1, .f32⟩
  | 59 => ⟨S4x16384x1, .f32⟩
  | 60 => ⟨S4x16384x512, .f32⟩
  | 61 => ⟨S4x16384x512, .f32⟩
  | 62 => ⟨S4x16384x512, .f32⟩
  | 63 => ⟨S_, .f32⟩
  | 64 => ⟨S4x16384, .f32⟩
  | 65 => ⟨S4x16384x1, .f32⟩
  | 66 => ⟨S_, .f32⟩
  | 67 => ⟨S4x16384x1, .f32⟩
  | 68 => ⟨S4x16384x1, .f32⟩
  | 69 => ⟨S4x16384x512, .f32⟩
  | 70 => ⟨S4x16384x512, .f32⟩
  | 71 => ⟨S_, .f32⟩
  | 72 => ⟨S4x16384x1, .f32⟩
  | 73 => ⟨S4x16384x1, .f32⟩
  | 74 => ⟨S4x16384x1, .f32⟩
  | 75 => ⟨S4x16384x512, .f32⟩
  | 76 => ⟨S4x16384x512, .f32⟩
  | 77 => ⟨S4x16384x512, .f32⟩
  | 78 => ⟨S4x16384x512, .f32⟩
  | 79 => ⟨S4x16384x512, .f32⟩
  | 80 => ⟨S4x16384x512, .f32⟩
  | 81 => ⟨S4x16384x512, .f32⟩
  | 82 => ⟨S4x1x512, .f32⟩
  | 83 => ⟨S4x16384x512, .f32⟩
  | 84 => ⟨S4x16384x512, .f32⟩
  | 85 => ⟨S4x1x512, .f32⟩
  | 86 => ⟨S4x16384x512, .f32⟩
  | 87 => ⟨S4x16384x512, .f32⟩
  | 88 => ⟨S1x16384x512, .f32⟩
  | 89 => ⟨S16384x512, .f32⟩
  | 90 => ⟨S16384x512, .f32⟩
  | 91 => ⟨S16384x512, .f32⟩
  | 92 => ⟨S_, .f32⟩
  | 93 => ⟨S16384x512, .f32⟩
  | 94 => ⟨S16384x512, .f32⟩
  | 95 => ⟨S_, .f32⟩
  | 96 => ⟨S16384x512, .f32⟩
  | 97 => ⟨S16384x512, .f32⟩
  | 98 => ⟨S1x16384x512, .f32⟩
  | 99 => ⟨S16384x512, .f32⟩
  | 100 => ⟨S16384x512, .f32⟩
  | 101 => ⟨S16384x512, .f32⟩
  | 102 => ⟨S_, .f32⟩
  | 103 => ⟨S16384x512, .f32⟩
  | 104 => ⟨S16384x512, .f32⟩
  | 105 => ⟨S_, .f32⟩
  | 106 => ⟨S16384x512, .f32⟩
  | 107 => ⟨S16384x512, .f32⟩
  | 108 => ⟨S1x16384x512, .f32⟩
  | 109 => ⟨S16384x512, .f32⟩
  | 110 => ⟨S16384x512, .f32⟩
  | 111 => ⟨S1x16384x512, .f32⟩
  | 112 => ⟨S16384x512, .f32⟩
  | 113 => ⟨S16384x512, .f32⟩
  | 114 => ⟨S16384x512, .f32⟩
  | 115 => ⟨S_, .f32⟩
  | 116 => ⟨S16384x512, .f32⟩
  | 117 => ⟨S16384x512, .f32⟩
  | 118 => ⟨S_, .f32⟩
  | 119 => ⟨S16384x512, .f32⟩
  | 120 => ⟨S16384x512, .f32⟩
  | 121 => ⟨S16384x512, .f32⟩
  | 122 => ⟨S16384x512, .f32⟩
  | 123 => ⟨S16384x512, .f32⟩
  | 124 => ⟨S_, .f32⟩
  | 125 => ⟨S16384, .f32⟩
  | 126 => ⟨S16384x1, .f32⟩
  | 127 => ⟨S_, .f32⟩
  | _ => ⟨S16384x512, .f32⟩

abbrev hbmTy0_1 (i : Nat) : BufTy := match i % 128 with
  | 0 => ⟨S16384x1, .f32⟩
  | 1 => ⟨S16384x1, .f32⟩
  | 2 => ⟨S16384x512, .f32⟩
  | 3 => ⟨S16384x512, .f32⟩
  | 4 => ⟨S16384x512, .f32⟩
  | 5 => ⟨S_, .f32⟩
  | 6 => ⟨S16384, .f32⟩
  | 7 => ⟨S16384x1, .f32⟩
  | 8 => ⟨S_, .f32⟩
  | 9 => ⟨S16384x1, .f32⟩
  | 10 => ⟨S16384x1, .f32⟩
  | 11 => ⟨S16384x512, .f32⟩
  | 12 => ⟨S16384x512, .f32⟩
  | 13 => ⟨S_, .f32⟩
  | 14 => ⟨S16384x1, .f32⟩
  | 15 => ⟨S16384x1, .f32⟩
  | 16 => ⟨S16384x1, .f32⟩
  | 17 => ⟨S16384x512, .f32⟩
  | 18 => ⟨S16384x512, .f32⟩
  | 19 => ⟨S1x512, .f32⟩
  | 20 => ⟨S16384x512, .f32⟩
  | 21 => ⟨S16384x512, .f32⟩
  | 22 => ⟨S1x512, .f32⟩
  | 23 => ⟨S16384x512, .f32⟩
  | 24 => ⟨S16384x512, .f32⟩
  | 25 => ⟨S16384x512, .f32⟩
  | 26 => ⟨S16384x512, .f32⟩
  | _ => ⟨S16384x512, .f32⟩

abbrev hbmTy (i : Nat) : BufTy := match i / 128 with
  | 0 => hbmTy0_0 i
  | 1 => hbmTy0_1 i
  | _ => ⟨S16384x512, .f32⟩

abbrev bufTy : (tb : Table) → Fin (tcTables nBuf tb) → BufTy
  | .hbm, ⟨i, _⟩ => hbmTy i
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_v11 : Ref sig .tc := ⟨.hbm, 27, rfl⟩
abbrev main_cst_0 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_1 : Ref sig .tc := ⟨.hbm, 34, rfl⟩
abbrev main_v17 : Ref sig .tc := ⟨.hbm, 35, rfl⟩
abbrev main_v18 : Ref sig .tc := ⟨.hbm, 36, rfl⟩
abbrev main_cst_2 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_3 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_4 : Ref sig .tc := ⟨.hbm, 54, rfl⟩
abbrev main_v34 : Ref sig .tc := ⟨.hbm, 55, rfl⟩
abbrev main_v35 : Ref sig .tc := ⟨.hbm, 56, rfl⟩
abbrev main_cst_5 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_6 : Ref sig .tc := ⟨.hbm, 63, rfl⟩
abbrev main_v41 : Ref sig .tc := ⟨.hbm, 64, rfl⟩
abbrev main_v42 : Ref sig .tc := ⟨.hbm, 65, rfl⟩
abbrev main_cst_7 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_8 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_9 : Ref sig .tc := ⟨.hbm, 92, rfl⟩
abbrev main_v67 : Ref sig .tc := ⟨.hbm, 93, rfl⟩
abbrev main_v68 : Ref sig .tc := ⟨.hbm, 94, rfl⟩
abbrev main_cst_10 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_11 : Ref sig .tc := ⟨.hbm, 102, rfl⟩
abbrev main_v75 : Ref sig .tc := ⟨.hbm, 103, rfl⟩
abbrev main_v76 : Ref sig .tc := ⟨.hbm, 104, rfl⟩
abbrev main_cst_12 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_cst_13 : Ref sig .tc := ⟨.hbm, 115, rfl⟩
abbrev main_v86 : Ref sig .tc := ⟨.hbm, 116, rfl⟩
abbrev main_v87 : Ref sig .tc := ⟨.hbm, 117, rfl⟩
abbrev main_cst_14 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_cst_15 : Ref sig .tc := ⟨.hbm, 124, rfl⟩
abbrev main_v93 : Ref sig .tc := ⟨.hbm, 125, rfl⟩
abbrev main_v94 : Ref sig .tc := ⟨.hbm, 126, rfl⟩
abbrev main_cst_16 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_cst_17 : Ref sig .tc := ⟨.hbm, 133, rfl⟩
abbrev main_v100 : Ref sig .tc := ⟨.hbm, 134, rfl⟩
abbrev main_v101 : Ref sig .tc := ⟨.hbm, 135, rfl⟩
abbrev main_cst_18 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_cst_19 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩

abbrev nD : Nat := 1
abbrev τ : Topo := Topo.v7x

variable {F : FTy → Type} [FloatOps F]

class Facts₀ : Prop where
  bcast_S16384x512_S1x16384x512_1_2 : S16384x512.BroadcastsInDim S1x16384x512 (![1, 2] : Fin 2 → Fin S1x16384x512.rank)
  bcast_S1x16384x512_S4x16384x512_0_1_2 : S1x16384x512.BroadcastsInDim S4x16384x512 (![0, 1, 2] : Fin 3 → Fin S4x16384x512.rank)
  bcast_S4x512_S4x1x512_0_2 : S4x512.BroadcastsInDim S4x1x512 (![0, 2] : Fin 2 → Fin S4x1x512.rank)
  reducesTo_S4x16384x512_S4x16384_d2 : S4x16384x512.ReducesTo [2] S4x16384
  h_S_ : 0 < S_.numel
  bcast_S4x16384_S4x16384x1_0_1 : S4x16384.BroadcastsInDim S4x16384x1 (![0, 1] : Fin 2 → Fin S4x16384x1.rank)
  bcast_S_S4x16384x1 : S_.BroadcastsInDim S4x16384x1 (![] : Fin 0 → Fin S4x16384x1.rank)
  bcast_S4x16384x1_S4x16384x512_0_1_2 : S4x16384x1.BroadcastsInDim S4x16384x512 (![0, 1, 2] : Fin 3 → Fin S4x16384x512.rank)
  bcast_S4x1x512_S4x16384x512_0_1_2 : S4x1x512.BroadcastsInDim S4x16384x512 (![0, 1, 2] : Fin 3 → Fin S4x16384x512.rank)
  slices_S4x16384x512_S1x16384x512_0_0_0 : S4x16384x512.Slices ![0, 0, 0] S1x16384x512
  shapeCasts_S1x16384x512_S16384x512 : S1x16384x512.ShapeCasts S16384x512
  bcast_S_S16384x512 : S_.BroadcastsInDim S16384x512 (![] : Fin 0 → Fin S16384x512.rank)
  slices_S4x16384x512_S1x16384x512_1_0_0 : S4x16384x512.Slices ![1, 0, 0] S1x16384x512
  slices_S4x16384x512_S1x16384x512_2_0_0 : S4x16384x512.Slices ![2, 0, 0] S1x16384x512
  slices_S4x16384x512_S1x16384x512_3_0_0 : S4x16384x512.Slices ![3, 0, 0] S1x16384x512
  reducesTo_S16384x512_S16384_d1 : S16384x512.ReducesTo [1] S16384
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x512_0_1 : S16384x1.BroadcastsInDim S16384x512 (![0, 1] : Fin 2 → Fin S16384x512.rank)
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  dot_S4x16384x512_S4x512x512_S4x16384x512_2_2_1_1_0_0_wf : DotDims.WF S4x16384x512 S4x512x512 S4x16384x512 [2] [2] [1] [1] [0] [0]

variable [Facts₀]

def dot_S4x16384x512_S4x512x512_S4x16384x512_2_2_1_1_0_0 : DotDims S4x16384x512 S4x512x512 S4x16384x512 where
  lhsContracting := [2]
  rhsContracting := [2]
  lhsNonContracting := [1]
  rhsNonContracting := [1]
  lhsBatch := [0]
  rhsBatch := [0]
  wf := dot_S4x16384x512_S4x512x512_S4x16384x512_2_2_1_1_0_0_wf

class Facts : Prop extends Facts₀ where

variable [Facts]
-- ==== Proof.Spec.lean ====
/-
  The mathematics of one step of a layer-normalised LSTM cell with per-gate input masks, on the extended reals,
  row by row. Every result row depends on ONE batch row of the three activations and of the two mask stacks, and on
  the whole of the small parameter arrays, so the cell is stated as functions of a row's data (`RowIn`) and of the
  parameters (`Params`).

  For a row `v` of width 512:
    mean v       = (Σ v) / 512
    sqDev v μ    = Σ (v - μ)²
    normWith     = (v - μ) · rsqrt(s / 512 + ε) · γ + β           (μ a mean, s a sum of squared deviations)
    layerNorm v  = normWith v (mean v) (sqDev v (mean v))
  For gate g ∈ {0,1,2,3} (input, forget, candidate, output):
    pre g        = layerNorm(Σ_k (x·mx_g)_k W_g[·,k]) + layerNorm(Σ_k (h·mh_g)_k U_g[·,k]) + b_ih g + b_hh g
  and the two results are
    c'           = σ(pre 1) · c + σ(pre 0) · tanh(pre 2)
    h'           = σ(pre 3) · tanh(layerNorm c')
  with σ the logistic function. The division by 512 and the ε are the two float words both programs carry.
-/
import Idealize.ShloMosaic.PureOps.Ideal
import Idealize.ShloMosaic.PureOps.Ideal.Laws
import Idealize.ShloMosaic.Lib.ValueIdx

noncomputable section

namespace Cert.LstmCell

open Idealize.ShloMosaic Idealize.ShloMosaic.ValueIdx

/-- A row of width 512. -/
abbrev Row : Type := Fin 512 → EReal

/-- The width 512 as the float word the programs divide by. -/
abbrev width : EReal := Ideal.ofBits .f32 0x44000000#32

/-- The variance offset ε as the float word the programs add. -/
abbrev eps : EReal := Ideal.ofBits .f32 0x3727C5AC#32

/-- The mean of a row. -/
def mean (v : Row) : EReal := Ideal.div (∑ n : Fin 512, v n) width

/-- The sum of squared deviations of a row from `μ`. -/
def sqDev (v : Row) (μ : EReal) : EReal := ∑ n : Fin 512, (v n - μ) * (v n - μ)

/-- A row normalised by a given mean `μ` and a given sum of squared deviations `s`, then scaled and shifted. -/
def normWith (v : Row) (μ s : EReal) (γ β : Row) (q : Fin 512) : EReal :=
  (v q - μ) * Ideal.rsqrt (Ideal.div s width + eps) * γ q + β q

/-- Layer normalisation of a row. -/
def layerNorm (v γ β : Row) (q : Fin 512) : EReal := normWith v (mean v) (sqDev v (mean v)) γ β q

/-- A masked row times a weight matrix: entry `h` is the sum over `k` of `(x k · mk k) · W h k`. -/
def proj (x mk : Row) (W : Fin 512 → Row) (h : Fin 512) : EReal := ∑ k : Fin 512, (x k * mk k) * W h k

/-- A gate's pre-activation from its two projected rows. -/
def gatePre (a b γx βx γh βh bi bh : Row) (q : Fin 512) : EReal :=
  layerNorm a γx βx q + layerNorm b γh βh q + bi q + bh q

/-- The parameters of the cell: the two weight stacks (gate, output feature, input feature), the two bias stacks, the
    four per-gate affine rows of the two normalisations and the affine row of the cell normalisation. -/
structure Params where
  W : Fin 4 → Fin 512 → Row
  U : Fin 4 → Fin 512 → Row
  bi : Fin 4 → Row
  bh : Fin 4 → Row
  γx : Fin 4 → Row
  βx : Fin 4 → Row
  γh : Fin 4 → Row
  βh : Fin 4 → Row
  γc : Row
  βc : Row

/-- One batch row of the data: the input, the hidden and the cell row, and that row of the four input masks and of
    the four hidden masks. -/
structure RowIn where
  x : Row
  h : Row
  c : Row
  mx : Fin 4 → Row
  mh : Fin 4 → Row

/-- Gate `g`'s pre-activation row. -/
def preOf (P : Params) (r : RowIn) (g : Fin 4) : Row :=
  gatePre (proj r.x (r.mx g) (P.W g)) (proj r.h (r.mh g) (P.U g)) (P.γx g) (P.βx g) (P.γh g) (P.βh g) (P.bi g) (P.bh g)

/-- The new cell row. -/
def cellRowOf (P : Params) (r : RowIn) (q : Fin 512) : EReal :=
  Ideal.logistic (preOf P r 1 q) * r.c q + Ideal.logistic (preOf P r 0 q) * Ideal.tanh (preOf P r 2 q)

/-- The new hidden row. -/
def hidRowOf (P : Params) (r : RowIn) (q : Fin 512) : EReal :=
  Ideal.logistic (preOf P r 3 q) * Ideal.tanh (layerNorm (cellRowOf P r) P.γc P.βc q)

/-! ## Over whole arrays -/

abbrev A2 : Type := (⟨2, ![16384, 512]⟩ : Shape).Idx → EReal
abbrev A3 : Type := (⟨3, ![4, 16384, 512]⟩ : Shape).Idx → EReal
abbrev AW : Type := (⟨3, ![4, 512, 512]⟩ : Shape).Idx → EReal
abbrev AP : Type := (⟨2, ![4, 512]⟩ : Shape).Idx → EReal
abbrev A1 : Type := (⟨1, ![512]⟩ : Shape).Idx → EReal

/-- The parameters read out of the parameter arrays; the weight stacks are indexed (gate, output feature, input
    feature). -/
def arrParams (W U : AW) (bi bh γx βx γh βh : AP) (γc βc : A1) : Params where
  W := fun g h k => W (ix3 g h k)
  U := fun g h k => U (ix3 g h k)
  bi := fun g n => bi (ix2 g n)
  bh := fun g n => bh (ix2 g n)
  γx := fun g n => γx (ix2 g n)
  βx := fun g n => βx (ix2 g n)
  γh := fun g n => γh (ix2 g n)
  βh := fun g n => βh (ix2 g n)
  γc := fun n => γc (ix1 n)
  βc := fun n => βc (ix1 n)

/-- Batch row `b` of the data arrays. -/
def arrRow (X H C : A2) (MX MH : A3) (b : Fin 16384) : RowIn where
  x := fun k => X (ix2 b k)
  h := fun k => H (ix2 b k)
  c := fun k => C (ix2 b k)
  mx := fun g k => MX (ix3 g b k)
  mh := fun g k => MH (ix3 g b k)

/-- The new hidden state as one function of the fifteen argument arrays. -/
def hidOut (X H C : A2) (MX MH : A3) (W U : AW) (bi bh γx βx γh βh : AP) (γc βc : A1) : A2 :=
  fun j => hidRowOf (arrParams W U bi bh γx βx γh βh γc βc) (arrRow X H C MX MH (j 0)) (j 1)

/-- The new cell state as one function of the fifteen argument arrays. -/
def cellOut (X H C : A2) (MX MH : A3) (W U : AW) (bi bh γx βx γh βh : AP) (γc βc : A1) : A2 :=
  fun j => cellRowOf (arrParams W U bi bh γx βx γh βh γc βc) (arrRow X H C MX MH (j 0)) (j 1)

/-! ## Over one block of 256 batch rows, with the weight stacks stored transposed -/

abbrev B2 : Type := (⟨2, ![256, 512]⟩ : Shape).Idx → EReal
abbrev B3 : Type := (⟨3, ![4, 256, 512]⟩ : Shape).Idx → EReal

/-- The parameters read out of parameter arrays whose weight stacks are stored (gate, input feature, output feature). -/
def blkParams (Wt Ut : AW) (bi bh γx βx γh βh : AP) (γc βc : A1) : Params where
  W := fun g h k => Wt (ix3 g k h)
  U := fun g h k => Ut (ix3 g k h)
  bi := fun g n => bi (ix2 g n)
  bh := fun g n => bh (ix2 g n)
  γx := fun g n => γx (ix2 g n)
  βx := fun g n => βx (ix2 g n)
  γh := fun g n => γh (ix2 g n)
  βh := fun g n => βh (ix2 g n)
  γc := fun n => γc (ix1 n)
  βc := fun n => βc (ix1 n)

/-- Row `p` of a block of 256 batch rows. -/
def blkRow (X H C : B2) (MX MH : B3) (p : Fin 256) : RowIn where
  x := fun k => X (ix2 p k)
  h := fun k => H (ix2 p k)
  c := fun k => C (ix2 p k)
  mx := fun g k => MX (ix3 g p k)
  mh := fun g k => MH (ix3 g p k)

end Cert.LstmCell

end
-- ==== Proof.KernelDot.lean ====
/-
  The kernel's matrix product read at a row and a column: the product of a masked [256,512] block with a [512,512]
  weight matrix into the zero accumulator is, at (p, q), the sum over k of (x(p,k) · mask(0,p,k)) · W(0,k,q). The two
  narrowings to sixteen bits are the identity on the extended reals.
-/
import proofs.«109891_j22170621182346_1_alg».proof.Proof.Gen.KernelIdeal.Skeleton
import proofs.«109891_j22170621182346_1_alg».proof.Proof.Gen.KernelIdeal
import Idealize.ShloMosaic.PureOps.Ideal.Laws
import Idealize.ShloMosaic.Lib.ValueIdx
import Idealize.ShloMosaic.Lib.ValueLayout

noncomputable section

namespace Cert.KernelIdeal.Block

open Cert.KernelIdeal Cert.KernelIdeal.Gen Idealize.ShloMosaic Idealize.ShloMosaic.ValueIdx

/-- The left operand's row coordinate is the result's row. -/
theorem dot_lhs_0 (i : S256x512.Idx) (k : dot_S256x512_S512x512_S256x512_1_0_0_1_n_n.contr.Idx) :
    (dot_S256x512_S512x512_S256x512_1_0_0_1_n_n.lhsIdx i k 0).val = (i 0).val := by
  unfold DotDims.lhsIdx
  rw [dif_neg (show ¬(0 : Fin S256x512.rank) ∈ dot_S256x512_S512x512_S256x512_1_0_0_1_n_n.lhsBatch by decide),
    dif_pos (show (0 : Fin S256x512.rank) ∈ dot_S256x512_S512x512_S256x512_1_0_0_1_n_n.lhsNonContracting by decide)]
  rfl

/-- The left operand's column coordinate is the contraction position. -/
theorem dot_lhs_1 (i : S256x512.Idx) (k : dot_S256x512_S512x512_S256x512_1_0_0_1_n_n.contr.Idx) :
    (dot_S256x512_S512x512_S256x512_1_0_0_1_n_n.lhsIdx i k 1).val = (k ⟨0, by decide⟩).val :=
  dot_S256x512_S512x512_S256x512_1_0_0_1_n_n.lhsIdx_val_of_single rfl i k

/-- The right operand's row coordinate is the contraction position. -/
theorem dot_rhs_0 (i : S256x512.Idx) (k : dot_S256x512_S512x512_S256x512_1_0_0_1_n_n.contr.Idx) :
    (dot_S256x512_S512x512_S256x512_1_0_0_1_n_n.rhsIdx i k 0).val = (k ⟨0, by decide⟩).val :=
  dot_S256x512_S512x512_S256x512_1_0_0_1_n_n.rhsIdx_val_of_single rfl i k

/-- The right operand's column coordinate is the result's column. -/
theorem dot_rhs_1 (i : S256x512.Idx) (k : dot_S256x512_S512x512_S256x512_1_0_0_1_n_n.contr.Idx) :
    (dot_S256x512_S512x512_S256x512_1_0_0_1_n_n.rhsIdx i k 1).val = (i 1).val := by
  unfold DotDims.rhsIdx
  rw [dif_neg (show ¬(1 : Fin S512x512.rank) ∈ dot_S256x512_S512x512_S256x512_1_0_0_1_n_n.rhsBatch by decide),
    dif_pos (show (1 : Fin S512x512.rank) ∈ dot_S256x512_S512x512_S256x512_1_0_0_1_n_n.rhsNonContracting by decide)]
  rfl

/-- The masked block times the weight matrix, at row `p` and column `q`. -/
theorem dot_apply (v0 : FVec Ideal S256x512 .f32) (v3 : FVec Ideal S1x256x512 .f32) (v11 : FVec Ideal S1x512x512 .f32)
    (p : Fin 256) (q : Fin 512) :
    k0_pay1 v0 v3 v11 (ix2 p q)
      = ∑ k : Fin 512, (v0 (ix2 p k) * v3 (ix3 (0 : Fin 1) p k)) * v11 (ix3 (0 : Fin 1) k q) := by
  unfold k0_pay1
  simp only [matmul]
  rw [Ideal.matmul_constant_zero_apply,
    ← Equiv.sum_comp (ValueIdx.contrEquiv1 dot_S256x512_S512x512_S256x512_1_0_0_1_n_n 512 rfl rfl).symm]
  refine Finset.sum_congr rfl fun k _ => ?_
  have hk := ValueIdx.contrEquiv1_symm_val dot_S256x512_S512x512_S256x512_1_0_0_1_n_n 512 rfl rfl k
  have el : dot_S256x512_S512x512_S256x512_1_0_0_1_n_n.lhsIdx (ix2 p q)
      ((ValueIdx.contrEquiv1 dot_S256x512_S512x512_S256x512_1_0_0_1_n_n 512 rfl rfl).symm k) = ix2 p k :=
    funext fun a => Fin.ext (by
      match a with
      | ⟨0, _⟩ => exact dot_lhs_0 _ _
      | ⟨1, _⟩ => exact (dot_lhs_1 _ _).trans hk)
  have er : dot_S256x512_S512x512_S256x512_1_0_0_1_n_n.rhsIdx (ix2 p q)
      ((ValueIdx.contrEquiv1 dot_S256x512_S512x512_S256x512_1_0_0_1_n_n 512 rfl rfl).symm k) = ix2 k q :=
    funext fun a => Fin.ext (by
      match a with
      | ⟨0, _⟩ => exact (dot_rhs_0 _ _).trans hk
      | ⟨1, _⟩ => exact dot_rhs_1 _ _)
  rw [el, er, truncf_apply, truncf_apply, mulf_apply, shapeCast_1ab_ab_apply, shapeCast_1ab_ab_apply]

end Cert.KernelIdeal.Block

end
-- ==== Proof.LibKeepdims.lean ====
/-
  A column kept as a trailing unit axis, read at coordinates: the three layout steps of a row reduction with the reduced
  axis kept (`sum(axis=1, keepdims=True)`) followed by a broadcast back along the rows.

  • an `[a]` vector viewed as an `[a, 1]` column reads, at `(i, u)`, the vector at `i`;
  • an `[a, 1]` column broadcast to `[a, b]` reads, at `(p, c)`, the column at `(p, 0)`;
  • a sum of an `[a, b]` array along its second axis reads, at `i`, the sum over `n` of the array at `(i, n)`.
-/
import Idealize.ShloMosaic.Lib.Pipeline.Value
import Idealize.ShloMosaic.Lib.ValueIdx
import Idealize.ShloMosaic.PureOps.Ideal.Laws

namespace Cert.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the extended reals, the sum of an `[a, b]` array along its second axis (started from the zero word) reads, at row
    `i`, the sum over `n` of the entries `(i, n)`. -/
theorem rowSum_apply {a b : ℕ} (src : FVec Ideal ⟨2, ![a, b]⟩ .f32) (h : (⟨2, ![a, b]⟩ : Shape).Reduces [1] ⟨1, ![a]⟩)
    (hφ : FKind.Formats FTy.f32) (hacc : (0x00000000#32 : BitVec 32) = 0x00000000#32) (i : Fin a) :
    multiReduction (F := Ideal) .add [1] ⟨1, ![a]⟩ src 0x00000000#32 h hφ hacc (ix1 i) = ∑ n : Fin b, src (ix2 i n) :=
  (Ideal.multiReduction_add_single src 0x00000000#32 h hφ hacc (ix1 i)).trans
    (Finset.sum_congr rfl fun k _ => congrArg src (funext fun ax => Fin.ext (by
      match ax with
      | ⟨0, _⟩ => rfl
      | ⟨1, _⟩ => rfl)))

end Cert.Keepdims
-- ==== Proof.KernelBlock.lean ====
/-
  One block of the kernel's two results, read at a row and a column.

  The body's arithmetic is spelt once over generic blocks: the sum of each row kept as a column, the row mean, the
  column of squared deviations, the normalisation of a block by a given mean column and a given variance column, and a
  gate's pre-activation. Each is read at a row `p` and a column `q` as the specification's row function of row `p`.
  The four gates' payload nests are this one gate function; the cell block is the pointwise cell update of the gates;
  the hidden block is the output gate times the hyperbolic tangent of the normalised cell block.
-/
import proofs.«109891_j22170621182346_1_alg».proof.Proof.Gen.KernelIdeal.Frame
import proofs.«109891_j22170621182346_1_alg».proof.Proof.Spec
import proofs.«109891_j22170621182346_1_alg».proof.Proof.KernelDot
import proofs.«109891_j22170621182346_1_alg».proof.Proof.LibKeepdims
import Idealize.ShloMosaic.Lib.ValueLayout
import Idealize.ShloMosaic.Lib.Pipeline.Value

noncomputable section

namespace Cert.KernelIdeal.Block

open Cert.KernelIdeal Cert.KernelIdeal.Gen Cert.LstmCell Idealize.ShloMosaic Idealize.ShloMosaic.ValueIdx

/-! ## Columns: a row reduction kept as a trailing unit axis -/

/-- The sum of each row of a block, kept as a column. -/
def colSum (v : FVec Ideal S256x512 .f32) : FVec Ideal S256x1 .f32 :=
  shapeCast S256x1 (multiReduction (F := Ideal) .add [1] S256 v 0x00000000#32 reduces_S256x512_S256 (.inl rfl) rfl)
    shapeCasts_S256_S256x1

theorem colSum_apply (v : FVec Ideal S256x512 .f32) (p : Fin 256) (u : Fin 1) :
    colSum v (ix2 p u) = ∑ n : Fin 512, v (ix2 p n) :=
  (Cert.Keepdims.shapeCast_a_a1_apply _ shapeCasts_S256_S256x1 p u).trans
    (Cert.Keepdims.rowSum_apply v reduces_S256x512_S256 (.inl rfl) rfl p)

/-- A column divided by the width 512. -/
def divW (s : FVec Ideal S256x1 .f32) : FVec Ideal S256x1 .f32 :=
  divf s (broadcast S256x1 (Scalar.ofBits .f32 0x44000000#32))

theorem divW_apply (s : FVec Ideal S256x1 .f32) (j : S256x1.Idx) : divW s j = Ideal.div (s j) width := rfl

/-- The mean of each row, as a column. -/
def colMean (v : FVec Ideal S256x512 .f32) : FVec Ideal S256x1 .f32 := divW (colSum v)

theorem colMean_apply (v : FVec Ideal S256x512 .f32) (p : Fin 256) (u : Fin 1) :
    colMean v (ix2 p u) = mean fun n => v (ix2 p n) :=
  congrArg (fun s => Ideal.div s width) (colSum_apply v p u)

/-- The sum of squared deviations of each row from a column `μ`, as a column. -/
def colSq (v : FVec Ideal S256x512 .f32) (μ : FVec Ideal S256x1 .f32) : FVec Ideal S256x1 .f32 :=
  colSum (mulf (subf v (broadcastTo S256x512 μ broadcasts_S256x1_S256x512))
    (subf v (broadcastTo S256x512 μ broadcasts_S256x1_S256x512)))

theorem colSq_apply (v : FVec Ideal S256x512 .f32) (μ : FVec Ideal S256x1 .f32) (p : Fin 256) (u : Fin 1) :
    colSq v μ (ix2 p u) = sqDev (fun n => v (ix2 p n)) (μ (ix2 p (0 : Fin 1))) :=
  (colSum_apply _ p u).trans (Finset.sum_congr rfl fun n _ => by
    show (v (ix2 p n) - broadcastTo S256x512 μ broadcasts_S256x1_S256x512 (ix2 p n))
        * (v (ix2 p n) - broadcastTo S256x512 μ broadcasts_S256x1_S256x512 (ix2 p n)) = _
    rw [Cert.Keepdims.broadcastTo_a1_ab_apply μ broadcasts_S256x1_S256x512 p n])

/-! ## A block normalised by a mean column and a variance column -/

/-- `(v - μ) · rsqrt(s + ε) · γ + β`, the columns `μ`, `s` spread along the rows and the rows `γ`, `β` down the columns. -/
def normed (v : FVec Ideal S256x512 .f32) (μ s : FVec Ideal S256x1 .f32) (γ β : FVec Ideal S1x512 .f32) :
    FVec Ideal S256x512 .f32 :=
  addf (mulf (mulf (subf v (broadcastTo S256x512 μ broadcasts_S256x1_S256x512))
      (broadcastTo S256x512 (rsqrt (addf s (broadcast S256x1 (Scalar.ofBits .f32 0x3727C5AC#32))))
        broadcasts_S256x1_S256x512))
    (broadcastTo S256x512 γ broadcasts_S1x512_S256x512)) (broadcastTo S256x512 β broadcasts_S1x512_S256x512)

theorem normed_apply (v : FVec Ideal S256x512 .f32) (μ s : FVec Ideal S256x1 .f32) (γ β : FVec Ideal S1x512 .f32)
    (p : Fin 256) (q : Fin 512) :
    normed v μ s γ β (ix2 p q)
      = (v (ix2 p q) - μ (ix2 p (0 : Fin 1))) * Ideal.rsqrt (s (ix2 p (0 : Fin 1)) + eps) * γ (ix2 (0 : Fin 1) q)
          + β (ix2 (0 : Fin 1) q) := by
  show (v (ix2 p q) - broadcastTo S256x512 μ broadcasts_S256x1_S256x512 (ix2 p q))
      * broadcastTo S256x512 (rsqrt (addf s (broadcast S256x1 (Scalar.ofBits .f32 0x3727C5AC#32))))
          broadcasts_S256x1_S256x512 (ix2 p q)
      * broadcastTo S256x512 γ broadcasts_S1x512_S256x512 (ix2 p q)
      + broadcastTo S256x512 β broadcasts_S1x512_S256x512 (ix2 p q) = _
  rw [Cert.Keepdims.broadcastTo_a1_ab_apply μ broadcasts_S256x1_S256x512 p q,
    Cert.Keepdims.broadcastTo_a1_ab_apply _ broadcasts_S256x1_S256x512 p q,
    broadcastTo_1b_ab_apply γ broadcasts_S1x512_S256x512 p q,
    broadcastTo_1b_ab_apply β broadcasts_S1x512_S256x512 p q]
  rfl

/-- The layer normalisation of each row of a block. -/
def lnBlk (v : FVec Ideal S256x512 .f32) (γ β : FVec Ideal S1x512 .f32) : FVec Ideal S256x512 .f32 :=
  normed v (colMean v) (divW (colSq v (colMean v))) γ β

theorem lnBlk_apply (v : FVec Ideal S256x512 .f32) (γ β : FVec Ideal S1x512 .f32) (p : Fin 256) (q : Fin 512) :
    lnBlk v γ β (ix2 p q)
      = layerNorm (fun n => v (ix2 p n)) (fun n => γ (ix2 (0 : Fin 1) n)) (fun n => β (ix2 (0 : Fin 1) n)) q := by
  refine (normed_apply v _ _ γ β p q).trans ?_
  rw [divW_apply, colSq_apply v _ p 0, colMean_apply v p 0]
  rfl

/-! ## Parameter rows -/

/-- A parameter row `[1,512]` taken through the flat form `[512]` and back. -/
def rc (g : Vec Ideal S1x512 .f32) : FVec Ideal S1x512 .f32 :=
  shapeCast S1x512 (shapeCast S512 g shapeCasts_S1x512_S512) shapeCasts_S512_S1x512

theorem rc_apply (g : Vec Ideal S1x512 .f32) (u : Fin 1) (n : Fin 512) : rc g (ix2 u n) = g (ix2 (0 : Fin 1) n) :=
  (shapeCast_a_1a_apply _ shapeCasts_S512_S1x512 u n).trans (shapeCast_1a_a_apply g shapeCasts_S1x512_S512 n)

/-- A flat row `[512]` as `[1,512]`. -/
def up (g : Vec Ideal S512 .f32) : FVec Ideal S1x512 .f32 := shapeCast S1x512 g shapeCasts_S512_S1x512

theorem up_apply (g : Vec Ideal S512 .f32) (u : Fin 1) (n : Fin 512) : up g (ix2 u n) = g (ix1 n) :=
  shapeCast_a_1a_apply g shapeCasts_S512_S1x512 u n

/-- A row spread down the 256 rows of a block. -/
def spread (g : FVec Ideal S1x512 .f32) : FVec Ideal S256x512 .f32 := broadcastTo S256x512 g broadcasts_S1x512_S256x512

theorem spread_apply (g : FVec Ideal S1x512 .f32) (p : Fin 256) (q : Fin 512) : spread g (ix2 p q) = g (ix2 (0 : Fin 1) q) :=
  broadcastTo_1b_ab_apply g broadcasts_S1x512_S256x512 p q

/-! ## A gate's pre-activation block -/

/-- The two normalised projections added, then the two bias rows. -/
def gate (A B : FVec Ideal S256x512 .f32) (γx βx γh βh bi bh : Vec Ideal S1x512 .f32) : FVec Ideal S256x512 .f32 :=
  addf (addf (addf (lnBlk A (rc γx) (rc βx)) (lnBlk B (rc γh) (rc βh))) (spread (rc bi))) (spread (rc bh))

theorem gate_apply (A B : FVec Ideal S256x512 .f32) (γx βx γh βh bi bh : Vec Ideal S1x512 .f32) (p : Fin 256) (q : Fin 512) :
    gate A B γx βx γh βh bi bh (ix2 p q)
      = gatePre (fun n => A (ix2 p n)) (fun n => B (ix2 p n)) (fun n => γx (ix2 (0 : Fin 1) n))
          (fun n => βx (ix2 (0 : Fin 1) n)) (fun n => γh (ix2 (0 : Fin 1) n)) (fun n => βh (ix2 (0 : Fin 1) n))
          (fun n => bi (ix2 (0 : Fin 1) n)) (fun n => bh (ix2 (0 : Fin 1) n)) q := by
  show lnBlk A (rc γx) (rc βx) (ix2 p q) + lnBlk B (rc γh) (rc βh) (ix2 p q) + spread (rc bi) (ix2 p q)
      + spread (rc bh) (ix2 p q) = _
  rw [lnBlk_apply, lnBlk_apply, spread_apply, spread_apply]
  simp only [rc_apply]
  rfl

/-! ## The four gates' payload nests are the one gate function -/

theorem gate0_eq (X X1 : Vec Ideal S256x512 .f32) (M M1 : Vec Ideal S1x256x512 .f32) (W W1 : Vec Ideal S1x512x512 .f32)
    (l7 l8 l9 l10 l11 l12 : Vec Ideal S1x512 .f32) :
    k0_pay9 (k0_pay7 (k0_pay1 X M W) (k0_pay2 X1 M1 W1) (k0_pay3 l9) (k0_pay4 l10) (k0_pay5 X M W) (k0_pay6 X M W) l11 l12)
        (k0_pay8 l7) l8
      = gate (k0_pay1 X M W) (k0_pay1 X1 M1 W1) l9 l10 l11 l12 l7 l8 := rfl

theorem gate1_eq (X X1 : Vec Ideal S256x512 .f32) (M M1 : Vec Ideal S1x256x512 .f32) (W W1 : Vec Ideal S1x512x512 .f32)
    (l7 l8 l9 l10 l11 l12 : Vec Ideal S1x512 .f32) :
    k0_pay18 (k0_pay16 (k0_pay10 X M W) (k0_pay11 X1 M1 W1) (k0_pay12 l9) (k0_pay13 l10) (k0_pay14 X M W) (k0_pay15 X M W)
        (Scalar.ofBits .f32 0x44000000#32) l11 l12) (k0_pay17 l7) l8
      = gate (k0_pay1 X M W) (k0_pay1 X1 M1 W1) l9 l10 l11 l12 l7 l8 := rfl

theorem gate2_eq (X X1 : Vec Ideal S256x512 .f32) (M M1 : Vec Ideal S1x256x512 .f32) (W W1 : Vec Ideal S1x512x512 .f32)
    (l7 l8 l9 l10 l11 l12 : Vec Ideal S1x512 .f32) :
    k0_pay27 (k0_pay26 (k0_pay19 X M W) (k0_pay20 X1 M1 W1) (k0_pay21 l9) (k0_pay22 l10) (k0_pay23 X M W) (k0_pay24 X M W)
        (k0_pay25 (F := Ideal)) l11 l12 l7) l8
      = gate (k0_pay1 X M W) (k0_pay1 X1 M1 W1) l9 l10 l11 l12 l7 l8 := rfl

theorem gate3_eq (X X1 : Vec Ideal S256x512 .f32) (M M1 : Vec Ideal S1x256x512 .f32) (W W1 : Vec Ideal S1x512x512 .f32)
    (l7 l8 l9 l10 l11 l12 : Vec Ideal S1x512 .f32) :
    addf (k0_pay34 (k0_pay28 X M W) (k0_pay29 X1 M1 W1) (k0_pay30 l9) (k0_pay31 l10) (k0_pay32 X M W) (k0_pay33 X M W)
        l11 l12 l7) (spread (rc l8))
      = gate (k0_pay1 X M W) (k0_pay1 X1 M1 W1) l9 l10 l11 l12 l7 l8 := rfl

/-! ## The cell update and the hidden state, as payloads -/

theorem pay35_apply (c a b d : FVec Ideal S256x512 .f32) (j : S256x512.Idx) :
    k0_pay35 c a b d j = Ideal.logistic (b j) * c j + Ideal.logistic (a j) * Ideal.tanh (d j) := rfl

theorem pay36_eq (c a b d e : FVec Ideal S256x512 .f32) (l8 : Vec Ideal S1x512 .f32) (γc βc : Vec Ideal S512 .f32) :
    k0_pay36 c a b d e l8 γc βc
      = mulf (logistic (addf e (spread (rc l8)))) (tanh (lnBlk (k0_pay35 c a b d) (up γc) (up βc))) := rfl

/-! ## Loads: one plane of a stack, one row of a table, a whole block -/

/-- Plane `g` of a `[4,a,b]` stack, loaded as a `[1,a,b]` piece, read at `(0, i, j)`. -/
theorem ld_plane {a b : ℕ} (x : Vec Ideal ⟨3, ![4, a, b]⟩ .f32) (g : Fin 4) (off : Fin 3 → ℕ)
    (inb : ∀ ax, off ax + (⟨3, ![1, a, b]⟩ : Shape).size ax ≤ (⟨3, ![4, a, b]⟩ : Shape).size ax)
    (h0 : off 0 = g.val) (h1 : off 1 = 0) (h2 : off 2 = 0) (i : Fin a) (j : Fin b) :
    View.ld x (Rect.unit (s := ⟨3, ![4, a, b]⟩) off (⟨3, ![1, a, b]⟩ : Shape).size inb) (ix3 (0 : Fin 1) i j)
      = x (ix3 g i j) :=
  congrArg x (funext fun ax => Fin.ext (by
    match ax with
    | ⟨0, _⟩ => show off 0 + 1 * 0 = g.val; omega
    | ⟨1, _⟩ => show off 1 + 1 * i.val = i.val; omega
    | ⟨2, _⟩ => show off 2 + 1 * j.val = j.val; omega))

/-- Row `g` of a `[4,b]` table, loaded as a `[1,b]` piece, read at `(0, j)`. -/
theorem ld_row {b : ℕ} (x : Vec Ideal ⟨2, ![4, b]⟩ .f32) (g : Fin 4) (off : Fin 2 → ℕ)
    (inb : ∀ ax, off ax + (⟨2, ![1, b]⟩ : Shape).size ax ≤ (⟨2, ![4, b]⟩ : Shape).size ax)
    (h0 : off 0 = g.val) (h1 : off 1 = 0) (j : Fin b) :
    View.ld x (Rect.unit (s := ⟨2, ![4, b]⟩) off (⟨2, ![1, b]⟩ : Shape).size inb) (ix2 (0 : Fin 1) j) = x (ix2 g j) :=
  congrArg x (funext fun ax => Fin.ext (by
    match ax with
    | ⟨0, _⟩ => show off 0 + 1 * 0 = g.val; omega
    | ⟨1, _⟩ => show off 1 + 1 * j.val = j.val; omega))

theorem zero2 : (![0, 0] : Fin 2 → ℕ) = fun _ => 0 :=
  funext fun ax => by match ax with | ⟨0, _⟩ => rfl | ⟨1, _⟩ => rfl

theorem zero1 : (![0] : Fin 1 → ℕ) = fun _ => 0 :=
  funext fun ax => by match ax with | ⟨0, _⟩ => rfl

theorem ld_block (x : Vec Ideal S256x512 .f32) : View.ld x r0_0 = x := View.ld_unit_zero zero2 _ x

theorem ld_flat (x : Vec Ideal S512 .f32) : View.ld x r0_13 = x := View.ld_unit_zero zero1 _ x

/-! ## A gate against the specification -/

/-- The gate function of the loaded pieces of gate `g`, at row `p` and column `q`, is the specification's
    pre-activation of gate `g` for the block's row `p`. -/
theorem gate_pre (x0 x1 x2 : Vec Ideal S256x512 .f32) (x3 x4 : Vec Ideal S4x256x512 .f32) (x5 x6 : Vec Ideal S4x512x512 .f32)
    (x7 x8 x9 x10 x11 x12 : Vec Ideal S4x512 .f32) (x13 x14 : Vec Ideal S512 .f32) (g : Fin 4)
    (X X1 : Vec Ideal S256x512 .f32) (M M1 : Vec Ideal S1x256x512 .f32) (W W1 : Vec Ideal S1x512x512 .f32)
    (l7 l8 l9 l10 l11 l12 : Vec Ideal S1x512 .f32) (hX : X = x0) (hX1 : X1 = x1)
    (hM : ∀ i j, M (ix3 (0 : Fin 1) i j) = x3 (ix3 g i j)) (hM1 : ∀ i j, M1 (ix3 (0 : Fin 1) i j) = x4 (ix3 g i j))
    (hW : ∀ i j, W (ix3 (0 : Fin 1) i j) = x5 (ix3 g i j)) (hW1 : ∀ i j, W1 (ix3 (0 : Fin 1) i j) = x6 (ix3 g i j))
    (h7 : ∀ n, l7 (ix2 (0 : Fin 1) n) = x7 (ix2 g n)) (h8 : ∀ n, l8 (ix2 (0 : Fin 1) n) = x8 (ix2 g n))
    (h9 : ∀ n, l9 (ix2 (0 : Fin 1) n) = x9 (ix2 g n)) (h10 : ∀ n, l10 (ix2 (0 : Fin 1) n) = x10 (ix2 g n))
    (h11 : ∀ n, l11 (ix2 (0 : Fin 1) n) = x11 (ix2 g n)) (h12 : ∀ n, l12 (ix2 (0 : Fin 1) n) = x12 (ix2 g n))
    (p : Fin 256) (q : Fin 512) :
    gate (k0_pay1 X M W) (k0_pay1 X1 M1 W1) l9 l10 l11 l12 l7 l8 (ix2 p q)
      = preOf (blkParams x5 x6 x7 x8 x9 x10 x11 x12 x13 x14) (blkRow x0 x1 x2 x3 x4 p) g q := by
  subst hX hX1
  have eA : (fun n => k0_pay1 X M W (ix2 p n))
      = proj (fun k => X (ix2 p k)) (fun k => x3 (ix3 g p k)) (fun h k => x5 (ix3 g k h)) :=
    funext fun n => (dot_apply X M W p n).trans (Finset.sum_congr rfl fun k _ => by rw [hM, hW])
  have eB : (fun n => k0_pay1 X1 M1 W1 (ix2 p n))
      = proj (fun k => X1 (ix2 p k)) (fun k => x4 (ix3 g p k)) (fun h k => x6 (ix3 g k h)) :=
    funext fun n => (dot_apply X1 M1 W1 p n).trans (Finset.sum_congr rfl fun k _ => by rw [hM1, hW1])
  rw [gate_apply, eA, eB, funext h7, funext h8, funext h9, funext h10, funext h11, funext h12]
  rfl

/-! ## The blocks of the body -/

def preBlk0 (x0 x1 : Vec Ideal S256x512 .f32) (x3 x4 : Vec Ideal S4x256x512 .f32) (x5 x6 : Vec Ideal S4x512x512 .f32)
    (x7 x8 x9 x10 x11 x12 : Vec Ideal S4x512 .f32) : FVec Ideal S256x512 .f32 :=
  gate (k0_pay1 (View.ld x0 r0_0) (View.ld x3 r0_1) (View.ld x5 r0_2)) (k0_pay1 (View.ld x1 r0_0) (View.ld x4 r0_1) (View.ld x6 r0_2))
    (View.ld x9 r0_3) (View.ld x10 r0_3) (View.ld x11 r0_3) (View.ld x12 r0_3) (View.ld x7 r0_3) (View.ld x8 r0_3)

def preBlk1 (x0 x1 : Vec Ideal S256x512 .f32) (x3 x4 : Vec Ideal S4x256x512 .f32) (x5 x6 : Vec Ideal S4x512x512 .f32)
    (x7 x8 x9 x10 x11 x12 : Vec Ideal S4x512 .f32) : FVec Ideal S256x512 .f32 :=
  gate (k0_pay1 (View.ld x0 r0_0) (View.ld x3 r0_4) (View.ld x5 r0_5)) (k0_pay1 (View.ld x1 r0_0) (View.ld x4 r0_4) (View.ld x6 r0_5))
    (View.ld x9 r0_6) (View.ld x10 r0_6) (View.ld x11 r0_6) (View.ld x12 r0_6) (View.ld x7 r0_6) (View.ld x8 r0_6)

def preBlk2 (x0 x1 : Vec Ideal S256x512 .f32) (x3 x4 : Vec Ideal S4x256x512 .f32) (x5 x6 : Vec Ideal S4x512x512 .f32)
    (x7 x8 x9 x10 x11 x12 : Vec Ideal S4x512 .f32) : FVec Ideal S256x512 .f32 :=
  gate (k0_pay1 (View.ld x0 r0_0) (View.ld x3 r0_7) (View.ld x5 r0_8)) (k0_pay1 (View.ld x1 r0_0) (View.ld x4 r0_7) (View.ld x6 r0_8))
    (View.ld x9 r0_9) (View.ld x10 r0_9) (View.ld x11 r0_9) (View.ld x12 r0_9) (View.ld x7 r0_9) (View.ld x8 r0_9)

def preBlk3 (x0 x1 : Vec Ideal S256x512 .f32) (x3 x4 : Vec Ideal S4x256x512 .f32) (x5 x6 : Vec Ideal S4x512x512 .f32)
    (x7 x8 x9 x10 x11 x12 : Vec Ideal S4x512 .f32) : FVec Ideal S256x512 .f32 :=
  gate (k0_pay1 (View.ld x0 r0_0) (View.ld x3 r0_10) (View.ld x5 r0_11)) (k0_pay1 (View.ld x1 r0_0) (View.ld x4 r0_10) (View.ld x6 r0_11))
    (View.ld x9 r0_12) (View.ld x10 r0_12) (View.ld x11 r0_12) (View.ld x12 r0_12) (View.ld x7 r0_12) (View.ld x8 r0_12)

theorem preBlk0_apply (x0 x1 x2 : Vec Ideal S256x512 .f32) (x3 x4 : Vec Ideal S4x256x512 .f32) (x5 x6 : Vec Ideal S4x512x512 .f32)
    (x7 x8 x9 x10 x11 x12 : Vec Ideal S4x512 .f32) (x13 x14 : Vec Ideal S512 .f32) (p : Fin 256) (q : Fin 512) :
    preBlk0 x0 x1 x3 x4 x5 x6 x7 x8 x9 x10 x11 x12 (ix2 p q)
      = preOf (blkParams x5 x6 x7 x8 x9 x10 x11 x12 x13 x14) (blkRow x0 x1 x2 x3 x4 p) 0 q :=
  gate_pre x0 x1 x2 x3 x4 x5 x6 x7 x8 x9 x10 x11 x12 x13 x14 0 _ _ _ _ _ _ _ _ _ _ _ _ (ld_block x0) (ld_block x1)
    (ld_plane x3 0 _ _ rfl rfl rfl) (ld_plane x4 0 _ _ rfl rfl rfl) (ld_plane x5 0 _ _ rfl rfl rfl) (ld_plane x6 0 _ _ rfl rfl rfl)
    (ld_row x7 0 _ _ rfl rfl) (ld_row x8 0 _ _ rfl rfl) (ld_row x9 0 _ _ rfl rfl) (ld_row x10 0 _ _ rfl rfl)
    (ld_row x11 0 _ _ rfl rfl) (ld_row x12 0 _ _ rfl rfl) p q

theorem preBlk1_apply (x0 x1 x2 : Vec Ideal S256x512 .f32) (x3 x4 : Vec Ideal S4x256x512 .f32) (x5 x6 : Vec Ideal S4x512x512 .f32)
    (x7 x8 x9 x10 x11 x12 : Vec Ideal S4x512 .f32) (x13 x14 : Vec Ideal S512 .f32) (p : Fin 256) (q : Fin 512) :
    preBlk1 x0 x1 x3 x4 x5 x6 x7 x8 x9 x10 x11 x12 (ix2 p q)
      = preOf (blkParams x5 x6 x7 x8 x9 x10 x11 x12 x13 x14) (blkRow x0 x1 x2 x3 x4 p) 1 q :=
  gate_pre x0 x1 x2 x3 x4 x5 x6 x7 x8 x9 x10 x11 x12 x13 x14 1 _ _ _ _ _ _ _ _ _ _ _ _ (ld_block x0) (ld_block x1)
    (ld_plane x3 1 _ _ rfl rfl rfl) (ld_plane x4 1 _ _ rfl rfl rfl) (ld_plane x5 1 _ _ rfl rfl rfl) (ld_plane x6 1 _ _ rfl rfl rfl)
    (ld_row x7 1 _ _ rfl rfl) (ld_row x8 1 _ _ rfl rfl) (ld_row x9 1 _ _ rfl rfl) (ld_row x10 1 _ _ rfl rfl)
    (ld_row x11 1 _ _ rfl rfl) (ld_row x12 1 _ _ rfl rfl) p q

theorem preBlk2_apply (x0 x1 x2 : Vec Ideal S256x512 .f32) (x3 x4 : Vec Ideal S4x256x512 .f32) (x5 x6 : Vec Ideal S4x512x512 .f32)
    (x7 x8 x9 x10 x11 x12 : Vec Ideal S4x512 .f32) (x13 x14 : Vec Ideal S512 .f32) (p : Fin 256) (q : Fin 512) :
    preBlk2 x0 x1 x3 x4 x5 x6 x7 x8 x9 x10 x11 x12 (ix2 p q)
      = preOf (blkParams x5 x6 x7 x8 x9 x10 x11 x12 x13 x14) (blkRow x0 x1 x2 x3 x4 p) 2 q :=
  gate_pre x0 x1 x2 x3 x4 x5 x6 x7 x8 x9 x10 x11 x12 x13 x14 2 _ _ _ _ _ _ _ _ _ _ _ _ (ld_block x0) (ld_block x1)
    (ld_plane x3 2 _ _ rfl rfl rfl) (ld_plane x4 2 _ _ rfl rfl rfl) (ld_plane x5 2 _ _ rfl rfl rfl) (ld_plane x6 2 _ _ rfl rfl rfl)
    (ld_row x7 2 _ _ rfl rfl) (ld_row x8 2 _ _ rfl rfl) (ld_row x9 2 _ _ rfl rfl) (ld_row x10 2 _ _ rfl rfl)
    (ld_row x11 2 _ _ rfl rfl) (ld_row x12 2 _ _ rfl rfl) p q

theorem preBlk3_apply (x0 x1 x2 : Vec Ideal S256x512 .f32) (x3 x4 : Vec Ideal S4x256x512 .f32) (x5 x6 : Vec Ideal S4x512x512 .f32)
    (x7 x8 x9 x10 x11 x12 : Vec Ideal S4x512 .f32) (x13 x14 : Vec Ideal S512 .f32) (p : Fin 256) (q : Fin 512) :
    preBlk3 x0 x1 x3 x4 x5 x6 x7 x8 x9 x10 x11 x12 (ix2 p q)
      = preOf (blkParams x5 x6 x7 x8 x9 x10 x11 x12 x13 x14) (blkRow x0 x1 x2 x3 x4 p) 3 q :=
  gate_pre x0 x1 x2 x3 x4 x5 x6 x7 x8 x9 x10 x11 x12 x13 x14 3 _ _ _ _ _ _ _ _ _ _ _ _ (ld_block x0) (ld_block x1)
    (ld_plane x3 3 _ _ rfl rfl rfl) (ld_plane x4 3 _ _ rfl rfl rfl) (ld_plane x5 3 _ _ rfl rfl rfl) (ld_plane x6 3 _ _ rfl rfl rfl)
    (ld_row x7 3 _ _ rfl rfl) (ld_row x8 3 _ _ rfl rfl) (ld_row x9 3 _ _ rfl rfl) (ld_row x10 3 _ _ rfl rfl)
    (ld_row x11 3 _ _ rfl rfl) (ld_row x12 3 _ _ rfl rfl) p q

/-- The new cell block: the pointwise cell update of the gates' blocks. -/
def cellBlk (x0 x1 x2 : Vec Ideal S256x512 .f32) (x3 x4 : Vec Ideal S4x256x512 .f32) (x5 x6 : Vec Ideal S4x512x512 .f32)
    (x7 x8 x9 x10 x11 x12 : Vec Ideal S4x512 .f32) : FVec Ideal S256x512 .f32 :=
  k0_pay35 (View.ld x2 r0_0) (preBlk0 x0 x1 x3 x4 x5 x6 x7 x8 x9 x10 x11 x12) (preBlk1 x0 x1 x3 x4 x5 x6 x7 x8 x9 x10 x11 x12) (preBlk2 x0 x1 x3 x4 x5 x6 x7 x8 x9 x10 x11 x12)

theorem cellBlk_apply (x0 x1 x2 : Vec Ideal S256x512 .f32) (x3 x4 : Vec Ideal S4x256x512 .f32) (x5 x6 : Vec Ideal S4x512x512 .f32)
    (x7 x8 x9 x10 x11 x12 : Vec Ideal S4x512 .f32) (x13 x14 : Vec Ideal S512 .f32) (p : Fin 256) (q : Fin 512) :
    cellBlk x0 x1 x2 x3 x4 x5 x6 x7 x8 x9 x10 x11 x12 (ix2 p q) = cellRowOf (blkParams x5 x6 x7 x8 x9 x10 x11 x12 x13 x14) (blkRow x0 x1 x2 x3 x4 p) q := by
  show k0_pay35 (View.ld x2 r0_0) (preBlk0 x0 x1 x3 x4 x5 x6 x7 x8 x9 x10 x11 x12) (preBlk1 x0 x1 x3 x4 x5 x6 x7 x8 x9 x10 x11 x12) (preBlk2 x0 x1 x3 x4 x5 x6 x7 x8 x9 x10 x11 x12) (ix2 p q) = _
  rw [pay35_apply, ld_block, preBlk0_apply x0 x1 x2 x3 x4 x5 x6 x7 x8 x9 x10 x11 x12 x13 x14 p q, preBlk1_apply x0 x1 x2 x3 x4 x5 x6 x7 x8 x9 x10 x11 x12 x13 x14 p q, preBlk2_apply x0 x1 x2 x3 x4 x5 x6 x7 x8 x9 x10 x11 x12 x13 x14 p q]
  rfl

/-- The new hidden block: the output gate times the hyperbolic tangent of the normalised cell block. -/
def hidBlk (x0 x1 x2 : Vec Ideal S256x512 .f32) (x3 x4 : Vec Ideal S4x256x512 .f32) (x5 x6 : Vec Ideal S4x512x512 .f32)
    (x7 x8 x9 x10 x11 x12 : Vec Ideal S4x512 .f32) (x13 x14 : Vec Ideal S512 .f32) : FVec Ideal S256x512 .f32 :=
  mulf (logistic (preBlk3 x0 x1 x3 x4 x5 x6 x7 x8 x9 x10 x11 x12)) (tanh (lnBlk (cellBlk x0 x1 x2 x3 x4 x5 x6 x7 x8 x9 x10 x11 x12) (up (View.ld x13 r0_13)) (up (View.ld x14 r0_13))))

theorem hidBlk_apply (x0 x1 x2 : Vec Ideal S256x512 .f32) (x3 x4 : Vec Ideal S4x256x512 .f32) (x5 x6 : Vec Ideal S4x512x512 .f32)
    (x7 x8 x9 x10 x11 x12 : Vec Ideal S4x512 .f32) (x13 x14 : Vec Ideal S512 .f32) (p : Fin 256) (q : Fin 512) :
    hidBlk x0 x1 x2 x3 x4 x5 x6 x7 x8 x9 x10 x11 x12 x13 x14 (ix2 p q) = hidRowOf (blkParams x5 x6 x7 x8 x9 x10 x11 x12 x13 x14) (blkRow x0 x1 x2 x3 x4 p) q := by
  show Ideal.logistic (preBlk3 x0 x1 x3 x4 x5 x6 x7 x8 x9 x10 x11 x12 (ix2 p q))
      * Ideal.tanh (lnBlk (cellBlk x0 x1 x2 x3 x4 x5 x6 x7 x8 x9 x10 x11 x12) (up (View.ld x13 r0_13)) (up (View.ld x14 r0_13)) (ix2 p q)) = _
  have eC : (fun n => cellBlk x0 x1 x2 x3 x4 x5 x6 x7 x8 x9 x10 x11 x12 (ix2 p n)) = cellRowOf (blkParams x5 x6 x7 x8 x9 x10 x11 x12 x13 x14) (blkRow x0 x1 x2 x3 x4 p) :=
    funext fun n => cellBlk_apply x0 x1 x2 x3 x4 x5 x6 x7 x8 x9 x10 x11 x12 x13 x14 p n
  have e13 : (fun n => up (View.ld x13 r0_13) (ix2 (0 : Fin 1) n)) = fun n => x13 (ix1 n) :=
    funext fun n => by rw [up_apply, ld_flat]
  have e14 : (fun n => up (View.ld x14 r0_13) (ix2 (0 : Fin 1) n)) = fun n => x14 (ix1 n) :=
    funext fun n => by rw [up_apply, ld_flat]
  rw [preBlk3_apply x0 x1 x2 x3 x4 x5 x6 x7 x8 x9 x10 x11 x12 x13 x14 p q, lnBlk_apply, eC, e13, e14]
  rfl

/-! ## The two stored payloads are these blocks -/

theorem out0_16_eq (x0 x1 x2 : Vec Ideal S256x512 .f32) (x3 x4 : Vec Ideal S4x256x512 .f32) (x5 x6 : Vec Ideal S4x512x512 .f32)
    (x7 x8 x9 x10 x11 x12 : Vec Ideal S4x512 .f32) (x13 x14 : Vec Ideal S512 .f32) :
    out0_16 x0 x1 x2 x3 x4 x5 x6 x7 x8 x9 x10 x11 x12 x13 x14 = cellBlk x0 x1 x2 x3 x4 x5 x6 x7 x8 x9 x10 x11 x12 := by
  unfold out0_16
  exact View.canon_unit_zero zero2 _ _

theorem out0_15_eq (x0 x1 x2 : Vec Ideal S256x512 .f32) (x3 x4 : Vec Ideal S4x256x512 .f32) (x5 x6 : Vec Ideal S4x512x512 .f32)
    (x7 x8 x9 x10 x11 x12 : Vec Ideal S4x512 .f32) (x13 x14 : Vec Ideal S512 .f32) :
    out0_15 x0 x1 x2 x3 x4 x5 x6 x7 x8 x9 x10 x11 x12 x13 x14 = hidBlk x0 x1 x2 x3 x4 x5 x6 x7 x8 x9 x10 x11 x12 x13 x14 := by
  unfold out0_15
  exact View.canon_unit_zero zero2 _ _

/-- The block the body leaves in the hidden-state window, at row `p` and column `q`: the new hidden row of the
    block's row `p`. -/
theorem out_hid (x0 x1 x2 : Vec Ideal S256x512 .f32) (x3 x4 : Vec Ideal S4x256x512 .f32) (x5 x6 : Vec Ideal S4x512x512 .f32)
    (x7 x8 x9 x10 x11 x12 : Vec Ideal S4x512 .f32) (x13 x14 : Vec Ideal S512 .f32) (p : Fin 256) (q : Fin 512) :
    out0_15 x0 x1 x2 x3 x4 x5 x6 x7 x8 x9 x10 x11 x12 x13 x14 (ix2 p q)
      = hidRowOf (blkParams x5 x6 x7 x8 x9 x10 x11 x12 x13 x14) (blkRow x0 x1 x2 x3 x4 p) q :=
  (congrFun (out0_15_eq x0 x1 x2 x3 x4 x5 x6 x7 x8 x9 x10 x11 x12 x13 x14) (ix2 p q)).trans (hidBlk_apply x0 x1 x2 x3 x4 x5 x6 x7 x8 x9 x10 x11 x12 x13 x14 p q)

/-- The block the body leaves in the cell-state window, at row `p` and column `q`: the new cell row of the block's
    row `p`. -/
theorem out_cell (x0 x1 x2 : Vec Ideal S256x512 .f32) (x3 x4 : Vec Ideal S4x256x512 .f32) (x5 x6 : Vec Ideal S4x512x512 .f32)
    (x7 x8 x9 x10 x11 x12 : Vec Ideal S4x512 .f32) (x13 x14 : Vec Ideal S512 .f32) (p : Fin 256) (q : Fin 512) :
    out0_16 x0 x1 x2 x3 x4 x5 x6 x7 x8 x9 x10 x11 x12 x13 x14 (ix2 p q)
      = cellRowOf (blkParams x5 x6 x7 x8 x9 x10 x11 x12 x13 x14) (blkRow x0 x1 x2 x3 x4 p) q :=
  (congrFun (out0_16_eq x0 x1 x2 x3 x4 x5 x6 x7 x8 x9 x10 x11 x12 x13 x14) (ix2 p q)).trans (cellBlk_apply x0 x1 x2 x3 x4 x5 x6 x7 x8 x9 x10 x11 x12 x13 x14 p q)

end Cert.KernelIdeal.Block

end
-- ==== Proof.KernelArray.lean ====
/-
  From the blocks the grid points write back to the two result arrays of the kernel's run.

  The grid has 64 points; point t handles batch rows 256·t … 256·t + 255. The input, hidden and cell windows and the two
  result windows hold those 256 rows; the two mask windows hold those rows of all four gates; every parameter window holds
  its whole array, the two weight stacks with their last two axes swapped. So the block a point leaves in a result window,
  at row p and column q, is the new row of batch row 256·t + p of the argument arrays at column q: block t of the
  whole-array result. The 64 blocks tile the result arrays, so each array ends at that whole-array result.
-/
import proofs.«109891_j22170621182346_1_alg».proof.Proof.Gen.KernelIdeal.Value
import proofs.«109891_j22170621182346_1_alg».proof.Proof.KernelBlock
import proofs.«109891_j22170621182346_1_alg».proof.Proof.Spec
import Idealize.ShloMosaic.Lib.ValueLayout
import Idealize.ShloMosaic.Lib.Pipeline.Value

noncomputable section

namespace Cert.KernelIdeal.Array

open Cert.KernelIdeal Cert.KernelIdeal.Gen Cert.KernelIdeal.Value Cert.LstmCell
open Idealize.ShloMosaic Idealize.ShloMosaic.TcCoe Idealize.ShloMosaic.ValueIdx Idealize.SL.Sem

section Blocks

variable (m : (ℓ : Loc nD τ sig) → Buf (Elt Ideal) ℓ)

/-! ## The block index of every window at each of the 64 grid points

Windows 0, 1, 2 and the two result windows take batch rows 256·t … 256·t + 255; the two mask windows take the same rows of
all four gates; every parameter window is its whole array. -/

theorem idx0 : ∀ t : Fin cfg0.N, win0_0.index t (0 : Fin 2) = t.val ∧ win0_0.index t (1 : Fin 2) = 0 :=
  (by decide +kernel : ∀ t : Fin grid0.N, _)

theorem idx1 : ∀ t : Fin cfg0.N, win0_1.index t (0 : Fin 2) = t.val ∧ win0_1.index t (1 : Fin 2) = 0 :=
  (by decide +kernel : ∀ t : Fin grid0.N, _)

theorem idx2 : ∀ t : Fin cfg0.N, win0_2.index t (0 : Fin 2) = t.val ∧ win0_2.index t (1 : Fin 2) = 0 :=
  (by decide +kernel : ∀ t : Fin grid0.N, _)

theorem idx15 : ∀ t : Fin cfg0.N, win0_15.index t (0 : Fin 2) = t.val ∧ win0_15.index t (1 : Fin 2) = 0 :=
  (by decide +kernel : ∀ t : Fin grid0.N, _)

theorem idx16 : ∀ t : Fin cfg0.N, win0_16.index t (0 : Fin 2) = t.val ∧ win0_16.index t (1 : Fin 2) = 0 :=
  (by decide +kernel : ∀ t : Fin grid0.N, _)

theorem idx3 : ∀ t : Fin cfg0.N, win0_3.index t (0 : Fin 3) = 0 ∧ win0_3.index t (1 : Fin 3) = t.val ∧ win0_3.index t (2 : Fin 3) = 0 :=
  (by decide +kernel : ∀ t : Fin grid0.N, _)

theorem idx4 : ∀ t : Fin cfg0.N, win0_4.index t (0 : Fin 3) = 0 ∧ win0_4.index t (1 : Fin 3) = t.val ∧ win0_4.index t (2 : Fin 3) = 0 :=
  (by decide +kernel : ∀ t : Fin grid0.N, _)

theorem idx5 : ∀ t : Fin cfg0.N, win0_5.index t (0 : Fin 3) = 0 ∧ win0_5.index t (1 : Fin 3) = 0 ∧ win0_5.index t (2 : Fin 3) = 0 :=
  (by decide +kernel : ∀ t : Fin grid0.N, _)

theorem idx6 : ∀ t : Fin cfg0.N, win0_6.index t (0 : Fin 3) = 0 ∧ win0_6.index t (1 : Fin 3) = 0 ∧ win0_6.index t (2 : Fin 3) = 0 :=
  (by decide +kernel : ∀ t : Fin grid0.N, _)

theorem idx7 : ∀ t : Fin cfg0.N, win0_7.index t (0 : Fin 2) = 0 ∧ win0_7.index t (1 : Fin 2) = 0 :=
  (by decide +kernel : ∀ t : Fin grid0.N, _)

theorem idx8 : ∀ t : Fin cfg0.N, win0_8.index t (0 : Fin 2) = 0 ∧ win0_8.index t (1 : Fin 2) = 0 :=
  (by decide +kernel : ∀ t : Fin grid0.N, _)

theorem idx9 : ∀ t : Fin cfg0.N, win0_9.index t (0 : Fin 2) = 0 ∧ win0_9.index t (1 : Fin 2) = 0 :=
  (by decide +kernel : ∀ t : Fin grid0.N, _)

theorem idx10 : ∀ t : Fin cfg0.N, win0_10.index t (0 : Fin 2) = 0 ∧ win0_10.index t (1 : Fin 2) = 0 :=
  (by decide +kernel : ∀ t : Fin grid0.N, _)

theorem idx11 : ∀ t : Fin cfg0.N, win0_11.index t (0 : Fin 2) = 0 ∧ win0_11.index t (1 : Fin 2) = 0 :=
  (by decide +kernel : ∀ t : Fin grid0.N, _)

theorem idx12 : ∀ t : Fin cfg0.N, win0_12.index t (0 : Fin 2) = 0 ∧ win0_12.index t (1 : Fin 2) = 0 :=
  (by decide +kernel : ∀ t : Fin grid0.N, _)

theorem idx13 : ∀ t : Fin cfg0.N, win0_13.index t (0 : Fin 1) = 0 :=
  (by decide +kernel : ∀ t : Fin grid0.N, _)

theorem idx14 : ∀ t : Fin cfg0.N, win0_14.index t (0 : Fin 1) = 0 :=
  (by decide +kernel : ∀ t : Fin grid0.N, _)

/-! ## The two transposed weight stacks as the region finds them -/

/-- The array window 5 stages is the first weight stack with its last two axes swapped. -/
theorem V_v0 (c : Dev nD) : (V m c main_v0 : AW)
    = transpose S4x512x512 [0, 2, 1] (m ((c : Thread nD τ).loc main_arg5) : AW) transposes_S4x512x512_S4x512x512_0_2_1 := by
  dsimp only [Gen.V, Gen.hostOps0]; after_results

/-- The array window 6 stages is the second weight stack with its last two axes swapped. -/
theorem V_v1 (c : Dev nD) : (V m c main_v1 : AW)
    = transpose S4x512x512 [0, 2, 1] (m ((c : Thread nD τ).loc main_arg6) : AW) transposes_S4x512x512_S4x512x512_0_2_1 := by
  dsimp only [Gen.V, Gen.hostOps0]; after_results

/-! ## Each window's block at a point, read at an index, is the argument array at the matching index -/

/-- Row `p` of the input block at point `t` is batch row `256·t + p` of the argument. -/
theorem blk0_apply (c : Dev nD) (t : Fin cfg0.N) (p : Fin 256) (k : Fin 512) (b : Fin 16384)
    (hb : b.val = 256 * t.val + p.val) :
    (iblk m c 0 t : B2) (ix2 p k) = (m ((c : Thread nD τ).loc main_arg0) : A2) (ix2 b k) := by
  obtain ⟨e0, e1⟩ := idx0 t
  unfold iblk
  rw [View.read_apply]
  show V m c main_arg0 _ = _
  rw [V_main_arg0]
  congr 1
  funext a
  apply Fin.ext
  match a with
  | ⟨0, _⟩ => show win0_0.index t (0 : Fin 2) * 256 + 1 * p.val = b.val; rw [e0, hb]; omega
  | ⟨1, _⟩ => show win0_0.index t (1 : Fin 2) * 512 + 1 * k.val = k.val; rw [e1]; omega

/-- Row `p` of the hidden block at point `t` is batch row `256·t + p` of the argument. -/
theorem blk1_apply (c : Dev nD) (t : Fin cfg0.N) (p : Fin 256) (k : Fin 512) (b : Fin 16384)
    (hb : b.val = 256 * t.val + p.val) :
    (iblk m c 1 t : B2) (ix2 p k) = (m ((c : Thread nD τ).loc main_arg1) : A2) (ix2 b k) := by
  obtain ⟨e0, e1⟩ := idx1 t
  unfold iblk
  rw [View.read_apply]
  show V m c main_arg1 _ = _
  rw [V_main_arg1]
  congr 1
  funext a
  apply Fin.ext
  match a with
  | ⟨0, _⟩ => show win0_1.index t (0 : Fin 2) * 256 + 1 * p.val = b.val; rw [e0, hb]; omega
  | ⟨1, _⟩ => show win0_1.index t (1 : Fin 2) * 512 + 1 * k.val = k.val; rw [e1]; omega

/-- Row `p` of the cell block at point `t` is batch row `256·t + p` of the argument. -/
theorem blk2_apply (c : Dev nD) (t : Fin cfg0.N) (p : Fin 256) (k : Fin 512) (b : Fin 16384)
    (hb : b.val = 256 * t.val + p.val) :
    (iblk m c 2 t : B2) (ix2 p k) = (m ((c : Thread nD τ).loc main_arg2) : A2) (ix2 b k) := by
  obtain ⟨e0, e1⟩ := idx2 t
  unfold iblk
  rw [View.read_apply]
  show V m c main_arg2 _ = _
  rw [V_main_arg2]
  congr 1
  funext a
  apply Fin.ext
  match a with
  | ⟨0, _⟩ => show win0_2.index t (0 : Fin 2) * 256 + 1 * p.val = b.val; rw [e0, hb]; omega
  | ⟨1, _⟩ => show win0_2.index t (1 : Fin 2) * 512 + 1 * k.val = k.val; rw [e1]; omega

/-- Row `p` of gate `g` of the input-mask block at point `t` is batch row `256·t + p` of that gate of the argument. -/
theorem blk3_apply (c : Dev nD) (t : Fin cfg0.N) (g : Fin 4) (p : Fin 256) (k : Fin 512) (b : Fin 16384)
    (hb : b.val = 256 * t.val + p.val) :
    (iblk m c 3 t : B3) (ix3 g p k) = (m ((c : Thread nD τ).loc main_arg3) : A3) (ix3 g b k) := by
  obtain ⟨e0, e1, e2⟩ := idx3 t
  unfold iblk
  rw [View.read_apply]
  show V m c main_arg3 _ = _
  rw [V_main_arg3]
  congr 1
  funext a
  apply Fin.ext
  match a with
  | ⟨0, _⟩ => show win0_3.index t (0 : Fin 3) * 4 + 1 * g.val = g.val; rw [e0]; omega
  | ⟨1, _⟩ => show win0_3.index t (1 : Fin 3) * 256 + 1 * p.val = b.val; rw [e1, hb]; omega
  | ⟨2, _⟩ => show win0_3.index t (2 : Fin 3) * 512 + 1 * k.val = k.val; rw [e2]; omega

/-- Row `p` of gate `g` of the hidden-mask block at point `t` is batch row `256·t + p` of that gate of the argument. -/
theorem blk4_apply (c : Dev nD) (t : Fin cfg0.N) (g : Fin 4) (p : Fin 256) (k : Fin 512) (b : Fin 16384)
    (hb : b.val = 256 * t.val + p.val) :
    (iblk m c 4 t : B3) (ix3 g p k) = (m ((c : Thread nD τ).loc main_arg4) : A3) (ix3 g b k) := by
  obtain ⟨e0, e1, e2⟩ := idx4 t
  unfold iblk
  rw [View.read_apply]
  show V m c main_arg4 _ = _
  rw [V_main_arg4]
  congr 1
  funext a
  apply Fin.ext
  match a with
  | ⟨0, _⟩ => show win0_4.index t (0 : Fin 3) * 4 + 1 * g.val = g.val; rw [e0]; omega
  | ⟨1, _⟩ => show win0_4.index t (1 : Fin 3) * 256 + 1 * p.val = b.val; rw [e1, hb]; omega
  | ⟨2, _⟩ => show win0_4.index t (2 : Fin 3) * 512 + 1 * k.val = k.val; rw [e2]; omega

/-- The first staged weight stack at (gate, input feature, output feature) is the argument at (gate, output feature,
    input feature). -/
theorem blk5_apply (c : Dev nD) (t : Fin cfg0.N) (g : Fin 4) (h k : Fin 512) :
    (iblk m c 5 t : AW) (ix3 g k h) = (m ((c : Thread nD τ).loc main_arg5) : AW) (ix3 g h k) := by
  obtain ⟨e0, e1, e2⟩ := idx5 t
  unfold iblk
  rw [View.read_apply]
  show V m c main_v0 _ = _
  rw [V_v0]
  refine Eq.trans ?_ (transpose_ix3_021_apply _ transposes_S4x512x512_S4x512x512_0_2_1 g k h)
  congr 1
  funext a
  apply Fin.ext
  match a with
  | ⟨0, _⟩ => show win0_5.index t (0 : Fin 3) * 4 + 1 * g.val = g.val; rw [e0]; omega
  | ⟨1, _⟩ => show win0_5.index t (1 : Fin 3) * 512 + 1 * k.val = k.val; rw [e1]; omega
  | ⟨2, _⟩ => show win0_5.index t (2 : Fin 3) * 512 + 1 * h.val = h.val; rw [e2]; omega

/-- The second staged weight stack at (gate, input feature, output feature) is the argument at (gate, output feature,
    input feature). -/
theorem blk6_apply (c : Dev nD) (t : Fin cfg0.N) (g : Fin 4) (h k : Fin 512) :
    (iblk m c 6 t : AW) (ix3 g k h) = (m ((c : Thread nD τ).loc main_arg6) : AW) (ix3 g h k) := by
  obtain ⟨e0, e1, e2⟩ := idx6 t
  unfold iblk
  rw [View.read_apply]
  show V m c main_v1 _ = _
  rw [V_v1]
  refine Eq.trans ?_ (transpose_ix3_021_apply _ transposes_S4x512x512_S4x512x512_0_2_1 g k h)
  congr 1
  funext a
  apply Fin.ext
  match a with
  | ⟨0, _⟩ => show win0_6.index t (0 : Fin 3) * 4 + 1 * g.val = g.val; rw [e0]; omega
  | ⟨1, _⟩ => show win0_6.index t (1 : Fin 3) * 512 + 1 * k.val = k.val; rw [e1]; omega
  | ⟨2, _⟩ => show win0_6.index t (2 : Fin 3) * 512 + 1 * h.val = h.val; rw [e2]; omega

/-- Window 7's block is its whole per-gate row stack. -/
theorem blk7_apply (c : Dev nD) (t : Fin cfg0.N) (g : Fin 4) (n : Fin 512) :
    (iblk m c 7 t : AP) (ix2 g n) = (m ((c : Thread nD τ).loc main_arg7) : AP) (ix2 g n) := by
  obtain ⟨e0, e1⟩ := idx7 t
  unfold iblk
  rw [View.read_apply]
  show V m c main_arg7 _ = _
  rw [V_main_arg7]
  congr 1
  funext a
  apply Fin.ext
  match a with
  | ⟨0, _⟩ => show win0_7.index t (0 : Fin 2) * 4 + 1 * g.val = g.val; rw [e0]; omega
  | ⟨1, _⟩ => show win0_7.index t (1 : Fin 2) * 512 + 1 * n.val = n.val; rw [e1]; omega

/-- Window 8's block is its whole per-gate row stack. -/
theorem blk8_apply (c : Dev nD) (t : Fin cfg0.N) (g : Fin 4) (n : Fin 512) :
    (iblk m c 8 t : AP) (ix2 g n) = (m ((c : Thread nD τ).loc main_arg8) : AP) (ix2 g n) := by
  obtain ⟨e0, e1⟩ := idx8 t
  unfold iblk
  rw [View.read_apply]
  show V m c main_arg8 _ = _
  rw [V_main_arg8]
  congr 1
  funext a
  apply Fin.ext
  match a with
  | ⟨0, _⟩ => show win0_8.index t (0 : Fin 2) * 4 + 1 * g.val = g.val; rw [e0]; omega
  | ⟨1, _⟩ => show win0_8.index t (1 : Fin 2) * 512 + 1 * n.val = n.val; rw [e1]; omega

/-- Window 9's block is its whole per-gate row stack. -/
theorem blk9_apply (c : Dev nD) (t : Fin cfg0.N) (g : Fin 4) (n : Fin 512) :
    (iblk m c 9 t : AP) (ix2 g n) = (m ((c : Thread nD τ).loc main_arg9) : AP) (ix2 g n) := by
  obtain ⟨e0, e1⟩ := idx9 t
  unfold iblk
  rw [View.read_apply]
  show V m c main_arg9 _ = _
  rw [V_main_arg9]
  congr 1
  funext a
  apply Fin.ext
  match a with
  | ⟨0, _⟩ => show win0_9.index t (0 : Fin 2) * 4 + 1 * g.val = g.val; rw [e0]; omega
  | ⟨1, _⟩ => show win0_9.index t (1 : Fin 2) * 512 + 1 * n.val = n.val; rw [e1]; omega

/-- Window 10's block is its whole per-gate row stack. -/
theorem blk10_apply (c : Dev nD) (t : Fin cfg0.N) (g : Fin 4) (n : Fin 512) :
    (iblk m c 10 t : AP) (ix2 g n) = (m ((c : Thread nD τ).loc main_arg10) : AP) (ix2 g n) := by
  obtain ⟨e0, e1⟩ := idx10 t
  unfold iblk
  rw [View.read_apply]
  show V m c main_arg10 _ = _
  rw [V_main_arg10]
  congr 1
  funext a
  apply Fin.ext
  match a with
  | ⟨0, _⟩ => show win0_10.index t (0 : Fin 2) * 4 + 1 * g.val = g.val; rw [e0]; omega
  | ⟨1, _⟩ => show win0_10.index t (1 : Fin 2) * 512 + 1 * n.val = n.val; rw [e1]; omega

/-- Window 11's block is its whole per-gate row stack. -/
theorem blk11_apply (c : Dev nD) (t : Fin cfg0.N) (g : Fin 4) (n : Fin 512) :
    (iblk m c 11 t : AP) (ix2 g n) = (m ((c : Thread nD τ).loc main_arg11) : AP) (ix2 g n) := by
  obtain ⟨e0, e1⟩ := idx11 t
  unfold iblk
  rw [View.read_apply]
  show V m c main_arg11 _ = _
  rw [V_main_arg11]
  congr 1
  funext a
  apply Fin.ext
  match a with
  | ⟨0, _⟩ => show win0_11.index t (0 : Fin 2) * 4 + 1 * g.val = g.val; rw [e0]; omega
  | ⟨1, _⟩ => show win0_11.index t (1 : Fin 2) * 512 + 1 * n.val = n.val; rw [e1]; omega

/-- Window 12's block is its whole per-gate row stack. -/
theorem blk12_apply (c : Dev nD) (t : Fin cfg0.N) (g : Fin 4) (n : Fin 512) :
    (iblk m c 12 t : AP) (ix2 g n) = (m ((c : Thread nD τ).loc main_arg12) : AP) (ix2 g n) := by
  obtain ⟨e0, e1⟩ := idx12 t
  unfold iblk
  rw [View.read_apply]
  show V m c main_arg12 _ = _
  rw [V_main_arg12]
  congr 1
  funext a
  apply Fin.ext
  match a with
  | ⟨0, _⟩ => show win0_12.index t (0 : Fin 2) * 4 + 1 * g.val = g.val; rw [e0]; omega
  | ⟨1, _⟩ => show win0_12.index t (1 : Fin 2) * 512 + 1 * n.val = n.val; rw [e1]; omega

/-- Window 13's block is its whole row. -/
theorem blk13_apply (c : Dev nD) (t : Fin cfg0.N) (n : Fin 512) :
    (iblk m c 13 t : A1) (ix1 n) = (m ((c : Thread nD τ).loc main_arg13) : A1) (ix1 n) := by
  have e0 := idx13 t
  unfold iblk
  rw [View.read_apply]
  show V m c main_arg13 _ = _
  rw [V_main_arg13]
  congr 1
  funext a
  apply Fin.ext
  match a with
  | ⟨0, _⟩ => show win0_13.index t (0 : Fin 1) * 512 + 1 * n.val = n.val; rw [e0]; omega

/-- Window 14's block is its whole row. -/
theorem blk14_apply (c : Dev nD) (t : Fin cfg0.N) (n : Fin 512) :
    (iblk m c 14 t : A1) (ix1 n) = (m ((c : Thread nD τ).loc main_arg14) : A1) (ix1 n) := by
  have e0 := idx14 t
  unfold iblk
  rw [View.read_apply]
  show V m c main_arg14 _ = _
  rw [V_main_arg14]
  congr 1
  funext a
  apply Fin.ext
  match a with
  | ⟨0, _⟩ => show win0_14.index t (0 : Fin 1) * 512 + 1 * n.val = n.val; rw [e0]; omega

/-! ## The parameters and a row's data, read off the blocks, are those read off the argument arrays -/

/-- The parameters the blocks at point `t` give are the parameters of the argument arrays. -/
theorem params_eq (c : Dev nD) (t : Fin cfg0.N) :
    blkParams (iblk m c 5 t) (iblk m c 6 t) (iblk m c 7 t) (iblk m c 8 t) (iblk m c 9 t) (iblk m c 10 t) (iblk m c 11 t) (iblk m c 12 t) (iblk m c 13 t) (iblk m c 14 t)
      = arrParams (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  unfold blkParams arrParams
  congr 1
  · funext g h k; exact blk5_apply m c t g h k
  · funext g h k; exact blk6_apply m c t g h k
  · funext g n; exact blk7_apply m c t g n
  · funext g n; exact blk8_apply m c t g n
  · funext g n; exact blk9_apply m c t g n
  · funext g n; exact blk10_apply m c t g n
  · funext g n; exact blk11_apply m c t g n
  · funext g n; exact blk12_apply m c t g n
  · funext n; exact blk13_apply m c t n
  · funext n; exact blk14_apply m c t n

/-- Row `p` of the blocks at point `t` is batch row `256·t + p` of the argument arrays. -/
theorem row_eq (c : Dev nD) (t : Fin cfg0.N) (p : Fin 256) (b : Fin 16384) (hb : b.val = 256 * t.val + p.val) :
    blkRow (iblk m c 0 t) (iblk m c 1 t) (iblk m c 2 t) (iblk m c 3 t) (iblk m c 4 t) p
      = arrRow (m ((c : Thread nD τ).loc main_arg0)) (m ((c : Thread nD τ).loc main_arg1)) (m ((c : Thread nD τ).loc main_arg2)) (m ((c : Thread nD τ).loc main_arg3)) (m ((c : Thread nD τ).loc main_arg4)) b := by
  unfold blkRow arrRow
  congr 1
  · funext k; exact blk0_apply m c t p k b hb
  · funext k; exact blk1_apply m c t p k b hb
  · funext k; exact blk2_apply m c t p k b hb
  · funext g k; exact blk3_apply m c t g p k b hb
  · funext g k; exact blk4_apply m c t g p k b hb

/-! ## What a grid point writes back is its block of the whole-array result -/

/-- Two arrays of rank 2 that agree at every (row, column) are equal. -/
theorem ext_ix2 {a b : ℕ} {α : Type} (f g : (⟨2, ![a, b]⟩ : Shape).Idx → α)
    (h : ∀ (p : Fin a) (q : Fin b), f (ix2 p q) = g (ix2 p q)) : f = g :=
  funext fun j => by rw [eq_ix2 j]; exact h _ _

/-- The hidden-state block the body leaves at point `t`, at row `p` and column `q`, is the new hidden row of batch row
    `256·t + p` of the argument arrays. -/
theorem hid_at (c : Dev nD) (t : Fin cfg0.N) (p : Fin 256) (q : Fin 512) (b : Fin 16384) (hb : b.val = 256 * t.val + p.val) :
    out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 p q)
      = hidRowOf (arrParams (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)))
          (arrRow (m ((c : Thread nD τ).loc main_arg0)) (m ((c : Thread nD τ).loc main_arg1)) (m ((c : Thread nD τ).loc main_arg2)) (m ((c : Thread nD τ).loc main_arg3)) (m ((c : Thread nD τ).loc main_arg4)) b) q := by
  refine (Block.out_hid (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) p q).trans ?_
  rw [params_eq m c t, row_eq m c t p b hb]

/-- What point `t` writes back to the hidden-state result is block `t` of `hidOut` of the argument arrays. -/
theorem hid_flushed (c : Dev nD) (t : Fin cfg0.N) :
    (dats m 0 c).flushed 15 t = ((cfg0.win 15).blk t).view.read (Elt Ideal)
      (hidOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) := by
  rw [Value.flushed15]
  obtain ⟨e0, e1⟩ := idx15 t
  refine ext_ix2 (a := 256) (b := 512) _ _ fun p q => ?_
  have hq : (((cfg0.win 15).blk t).view.emb (ix2 p q)) 1 = q :=
    Fin.ext (by show win0_15.index t (1 : Fin 2) * 512 + 1 * q.val = q.val; rw [e1]; omega)
  have hb : ((((cfg0.win 15).blk t).view.emb (ix2 p q)) 0).val = 256 * t.val + p.val := by
    show win0_15.index t (0 : Fin 2) * 256 + 1 * p.val = _; rw [e0]; omega
  refine (hid_at m c t p q _ hb).trans ?_
  show _ = hidRowOf _ _ ((((cfg0.win 15).blk t).view.emb (ix2 p q)) 1)
  rw [hq]

/-- An index of the result array is in point `t`'s block iff each coordinate is in the block's range on its axis. -/
theorem mem_blk15 (t : Fin cfg0.N) (i : S16384x512.Idx) :
    i ∈ ((cfg0.win 15).blk t).view.set ↔ ∀ a : Fin 2, win0_15.index t a * S256x512.size a ≤ (i a).val ∧ (i a).val < win0_15.index t a * S256x512.size a + S256x512.size a := by
  show i ∈ ((View.whole main_v2_0).slice (win0_15.rect t)).set ↔ _
  rw [View.set_slice_whole, Rect.mem_set_unit]
  exact Iff.rfl

/-- Every index of the hidden-state result lies in the block of the point its row divided by 256 names. -/
theorem hid_cover (i : S16384x512.Idx) :
    ∃ t : Fin cfg0.N, (cfg0.win 15).flush t = true ∧ i ∈ ((cfg0.win 15).blk t).view.set := by
  have hi0 : (i 0).val < 16384 := (i 0).isLt
  have hi1 : (i 1).val < 512 := (i 1).isLt
  have hN : cfg0.N = 64 := N_0
  have ht : (i 0).val / 256 < cfg0.N := by rw [hN]; omega
  obtain ⟨e0, e1⟩ := idx15 ⟨(i 0).val / 256, ht⟩
  refine ⟨⟨(i 0).val / 256, ht⟩, flush0_15 _, ?_⟩
  rw [mem_blk15]
  intro a
  match a with
  | ⟨0, _⟩ =>
    show win0_15.index ⟨(i 0).val / 256, ht⟩ (0 : Fin 2) * 256 ≤ (i 0).val ∧ (i 0).val < win0_15.index ⟨(i 0).val / 256, ht⟩ (0 : Fin 2) * 256 + 256
    rw [e0]; show (i 0).val / 256 * 256 ≤ (i 0).val ∧ (i 0).val < (i 0).val / 256 * 256 + 256; omega
  | ⟨1, _⟩ =>
    show win0_15.index ⟨(i 0).val / 256, ht⟩ (1 : Fin 2) * 512 ≤ (i 1).val ∧ (i 1).val < win0_15.index ⟨(i 0).val / 256, ht⟩ (1 : Fin 2) * 512 + 512
    rw [e1]; omega

/-- The hidden-state result array after the run is `hidOut` of the argument arrays. -/
theorem hid_final (c : Dev nD) : (dats m 0 c).arrAt 15 cfg0.N
    = hidOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) :=
  (dats m 0 c).arrAt_eq_of_cover 15 (hidOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)))
    (fun t _ => hid_flushed m c t) hid_cover

/-- The cell-state block the body leaves at point `t`, at row `p` and column `q`, is the new cell row of batch row
    `256·t + p` of the argument arrays. -/
theorem cell_at (c : Dev nD) (t : Fin cfg0.N) (p : Fin 256) (q : Fin 512) (b : Fin 16384) (hb : b.val = 256 * t.val + p.val) :
    out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 p q)
      = cellRowOf (arrParams (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)))
          (arrRow (m ((c : Thread nD τ).loc main_arg0)) (m ((c : Thread nD τ).loc main_arg1)) (m ((c : Thread nD τ).loc main_arg2)) (m ((c : Thread nD τ).loc main_arg3)) (m ((c : Thread nD τ).loc main_arg4)) b) q := by
  refine (Block.out_cell (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) p q).trans ?_
  rw [params_eq m c t, row_eq m c t p b hb]

/-- What point `t` writes back to the cell-state result is block `t` of `cellOut` of the argument arrays. -/
theorem cell_flushed (c : Dev nD) (t : Fin cfg0.N) :
    (dats m 0 c).flushed 16 t = ((cfg0.win 16).blk t).view.read (Elt Ideal)
      (cellOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) := by
  rw [Value.flushed16]
  obtain ⟨e0, e1⟩ := idx16 t
  refine ext_ix2 (a := 256) (b := 512) _ _ fun p q => ?_
  have hq : (((cfg0.win 16).blk t).view.emb (ix2 p q)) 1 = q :=
    Fin.ext (by show win0_16.index t (1 : Fin 2) * 512 + 1 * q.val = q.val; rw [e1]; omega)
  have hb : ((((cfg0.win 16).blk t).view.emb (ix2 p q)) 0).val = 256 * t.val + p.val := by
    show win0_16.index t (0 : Fin 2) * 256 + 1 * p.val = _; rw [e0]; omega
  refine (cell_at m c t p q _ hb).trans ?_
  show _ = cellRowOf _ _ ((((cfg0.win 16).blk t).view.emb (ix2 p q)) 1)
  rw [hq]

/-- An index of the result array is in point `t`'s block iff each coordinate is in the block's range on its axis. -/
theorem mem_blk16 (t : Fin cfg0.N) (i : S16384x512.Idx) :
    i ∈ ((cfg0.win 16).blk t).view.set ↔ ∀ a : Fin 2, win0_16.index t a * S256x512.size a ≤ (i a).val ∧ (i a).val < win0_16.index t a * S256x512.size a + S256x512.size a := by
  show i ∈ ((View.whole main_v2_1).slice (win0_16.rect t)).set ↔ _
  rw [View.set_slice_whole, Rect.mem_set_unit]
  exact Iff.rfl

/-- Every index of the cell-state result lies in the block of the point its row divided by 256 names. -/
theorem cell_cover (i : S16384x512.Idx) :
    ∃ t : Fin cfg0.N, (cfg0.win 16).flush t = true ∧ i ∈ ((cfg0.win 16).blk t).view.set := by
  have hi0 : (i 0).val < 16384 := (i 0).isLt
  have hi1 : (i 1).val < 512 := (i 1).isLt
  have hN : cfg0.N = 64 := N_0
  have ht : (i 0).val / 256 < cfg0.N := by rw [hN]; omega
  obtain ⟨e0, e1⟩ := idx16 ⟨(i 0).val / 256, ht⟩
  refine ⟨⟨(i 0).val / 256, ht⟩, flush0_16 _, ?_⟩
  rw [mem_blk16]
  intro a
  match a with
  | ⟨0, _⟩ =>
    show win0_16.index ⟨(i 0).val / 256, ht⟩ (0 : Fin 2) * 256 ≤ (i 0).val ∧ (i 0).val < win0_16.index ⟨(i 0).val / 256, ht⟩ (0 : Fin 2) * 256 + 256
    rw [e0]; show (i 0).val / 256 * 256 ≤ (i 0).val ∧ (i 0).val < (i 0).val / 256 * 256 + 256; omega
  | ⟨1, _⟩ =>
    show win0_16.index ⟨(i 0).val / 256, ht⟩ (1 : Fin 2) * 512 ≤ (i 1).val ∧ (i 1).val < win0_16.index ⟨(i 0).val / 256, ht⟩ (1 : Fin 2) * 512 + 512
    rw [e1]; omega

/-- The cell-state result array after the run is `cellOut` of the argument arrays. -/
theorem cell_final (c : Dev nD) : (dats m 0 c).arrAt 16 cfg0.N
    = cellOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) :=
  (dats m 0 c).arrAt_eq_of_cover 16 (cellOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)))
    (fun t _ => cell_flushed m c t) cell_cover

end Blocks

/-! ## The run -/

/-- The kernel's run ends with the hidden-state result at `hidOut` and the cell-state result at `cellOut` of the
    argument arrays, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v2_0) = hidOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))
      ∧ r.2.mem ((c : Thread nD τ).loc main_v2_1) = cellOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨(h c).1.trans (hid_final m c), (h c).2.1.trans (cell_final m c), (h c).2.2⟩)
    (Value.run_blocks m ρ)

end Cert.KernelIdeal.Array

end
-- ==== Proof.RefDot.lean ====
/-
  The reference's batched product read at a gate, a batch row and a column: contracting the last axis of a
  [4,16384,512] stack with the last axis of a [4,512,512] stack, gate by gate, gives at (g, b, q) the sum over k of
  l(g,b,k) · w(g,q,k).
-/
import proofs.«109891_j22170621182346_1_alg».proof.Proof.Gen.ReferenceIdeal
import Idealize.ShloMosaic.PureOps.Ideal.Laws
import Idealize.ShloMosaic.Lib.ValueIdx

noncomputable section

namespace Cert.ReferenceIdeal.RefValue

open Cert.ReferenceIdeal Cert.ReferenceIdeal.Gen Idealize.ShloMosaic Idealize.ShloMosaic.ValueIdx

/-- The left operand's gate coordinate is the result's gate. -/
theorem dot_lhs_0 (i : S4x16384x512.Idx) (k : dot_S4x16384x512_S4x512x512_S4x16384x512_2_2_1_1_0_0.contr.Idx) :
    (dot_S4x16384x512_S4x512x512_S4x16384x512_2_2_1_1_0_0.lhsIdx i k 0).val = (i 0).val := by
  unfold DotDims.lhsIdx
  rw [dif_pos (show (0 : Fin S4x16384x512.rank) ∈ dot_S4x16384x512_S4x512x512_S4x16384x512_2_2_1_1_0_0.lhsBatch by decide)]
  rfl

/-- The left operand's row coordinate is the result's batch row. -/
theorem dot_lhs_1 (i : S4x16384x512.Idx) (k : dot_S4x16384x512_S4x512x512_S4x16384x512_2_2_1_1_0_0.contr.Idx) :
    (dot_S4x16384x512_S4x512x512_S4x16384x512_2_2_1_1_0_0.lhsIdx i k 1).val = (i 1).val := by
  unfold DotDims.lhsIdx
  rw [dif_neg (show ¬(1 : Fin S4x16384x512.rank) ∈ dot_S4x16384x512_S4x512x512_S4x16384x512_2_2_1_1_0_0.lhsBatch by decide),
    dif_pos (show (1 : Fin S4x16384x512.rank) ∈ dot_S4x16384x512_S4x512x512_S4x16384x512_2_2_1_1_0_0.lhsNonContracting by decide)]
  rfl

/-- The left operand's last coordinate is the contraction position. -/
theorem dot_lhs_2 (i : S4x16384x512.Idx) (k : dot_S4x16384x512_S4x512x512_S4x16384x512_2_2_1_1_0_0.contr.Idx) :
    (dot_S4x16384x512_S4x512x512_S4x16384x512_2_2_1_1_0_0.lhsIdx i k 2).val = (k ⟨0, by decide⟩).val :=
  dot_S4x16384x512_S4x512x512_S4x16384x512_2_2_1_1_0_0.lhsIdx_val_of_single rfl i k

/-- The right operand's gate coordinate is the result's gate. -/
theorem dot_rhs_0 (i : S4x16384x512.Idx) (k : dot_S4x16384x512_S4x512x512_S4x16384x512_2_2_1_1_0_0.contr.Idx) :
    (dot_S4x16384x512_S4x512x512_S4x16384x512_2_2_1_1_0_0.rhsIdx i k 0).val = (i 0).val := by
  unfold DotDims.rhsIdx
  rw [dif_pos (show (0 : Fin S4x512x512.rank) ∈ dot_S4x16384x512_S4x512x512_S4x16384x512_2_2_1_1_0_0.rhsBatch by decide)]
  rfl

/-- The right operand's row coordinate is the result's column. -/
theorem dot_rhs_1 (i : S4x16384x512.Idx) (k : dot_S4x16384x512_S4x512x512_S4x16384x512_2_2_1_1_0_0.contr.Idx) :
    (dot_S4x16384x512_S4x512x512_S4x16384x512_2_2_1_1_0_0.rhsIdx i k 1).val = (i 2).val := by
  unfold DotDims.rhsIdx
  rw [dif_neg (show ¬(1 : Fin S4x512x512.rank) ∈ dot_S4x16384x512_S4x512x512_S4x16384x512_2_2_1_1_0_0.rhsBatch by decide),
    dif_pos (show (1 : Fin S4x512x512.rank) ∈ dot_S4x16384x512_S4x512x512_S4x16384x512_2_2_1_1_0_0.rhsNonContracting by decide)]
  rfl

/-- The right operand's last coordinate is the contraction position. -/
theorem dot_rhs_2 (i : S4x16384x512.Idx) (k : dot_S4x16384x512_S4x512x512_S4x16384x512_2_2_1_1_0_0.contr.Idx) :
    (dot_S4x16384x512_S4x512x512_S4x16384x512_2_2_1_1_0_0.rhsIdx i k 2).val = (k ⟨0, by decide⟩).val :=
  dot_S4x16384x512_S4x512x512_S4x16384x512_2_2_1_1_0_0.rhsIdx_val_of_single rfl i k

/-- The batched product at gate `g`, batch row `b` and column `q`. -/
theorem dot_apply (l : FVec Ideal S4x16384x512 .f32) (w : FVec Ideal S4x512x512 .f32) (g : Fin 4) (b : Fin 16384)
    (q : Fin 512) :
    Host.dotGeneral dot_S4x16384x512_S4x512x512_S4x16384x512_2_2_1_1_0_0 none l w (ix3 g b q) = ∑ k : Fin 512, l (ix3 g b k) * w (ix3 g q k) := by
  simp only [Host.dotGeneral]
  rw [Ideal.dotGeneral_apply, ← Equiv.sum_comp (ValueIdx.contrEquiv1 dot_S4x16384x512_S4x512x512_S4x16384x512_2_2_1_1_0_0 512 rfl rfl).symm]
  refine Finset.sum_congr rfl fun k _ => ?_
  have hk := ValueIdx.contrEquiv1_symm_val dot_S4x16384x512_S4x512x512_S4x16384x512_2_2_1_1_0_0 512 rfl rfl k
  have el : dot_S4x16384x512_S4x512x512_S4x16384x512_2_2_1_1_0_0.lhsIdx (ix3 g b q) ((ValueIdx.contrEquiv1 dot_S4x16384x512_S4x512x512_S4x16384x512_2_2_1_1_0_0 512 rfl rfl).symm k) = ix3 g b k :=
    funext fun a => Fin.ext (by
      match a with
      | ⟨0, _⟩ => exact dot_lhs_0 _ _
      | ⟨1, _⟩ => exact dot_lhs_1 _ _
      | ⟨2, _⟩ => exact (dot_lhs_2 _ _).trans hk)
  have er : dot_S4x16384x512_S4x512x512_S4x16384x512_2_2_1_1_0_0.rhsIdx (ix3 g b q) ((ValueIdx.contrEquiv1 dot_S4x16384x512_S4x512x512_S4x16384x512_2_2_1_1_0_0 512 rfl rfl).symm k) = ix3 g q k :=
    funext fun a => Fin.ext (by
      match a with
      | ⟨0, _⟩ => exact dot_rhs_0 _ _
      | ⟨1, _⟩ => exact dot_rhs_1 _ _
      | ⟨2, _⟩ => exact (dot_rhs_2 _ _).trans hk)
  rw [el, er]

end Cert.ReferenceIdeal.RefValue

end
-- ==== Proof.RefValue.lean ====
/-
  The reference's run read back as the cell's two result functions of the argument arrays.

  The reference computes all four gates at once on [4, 16384, 512] stacks. Read at a gate g, a batch row b and a
  column q, each of its steps is a step of the cell on row b alone:
    • the input (hidden) array copied along the gate axis and multiplied by the mask stack, then contracted with the
      weight stack gate by gate, is Σ_k (x_k · m_k) · W_g[q, k]: the projection of the masked row;
    • a sum along the last axis kept as a unit axis, divided by the width word and copied back along the row, is the
      row's mean; the same on the squared deviations, plus the ε word, under the reciprocal square root, and the two
      affine rows copied along the batch axis, make the layer normalisation of the row;
    • the two normalised projections plus the two bias rows are gate g's pre-activation;
    • the slab of that stack at gate g with its unit axis dropped is gate g's pre-activation array, and one over one
      plus the exponential of the negation is the logistic function, by its definition on the extended reals;
    • the new cell state is σ(pre 1) · c + σ(pre 0) · tanh(pre 2), and the new hidden state σ(pre 3) · tanh of the layer
      normalisation of the new cell row.
  Only 0 + s = s is used of the arithmetic (the sums start from the zero word), and that the word 0x3F800000 is 1.
-/
import proofs.«109891_j22170621182346_1_alg».proof.Proof.Gen.ReferenceIdeal.Run
import proofs.«109891_j22170621182346_1_alg».proof.Proof.Spec
import proofs.«109891_j22170621182346_1_alg».proof.Proof.RefDot
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.ReferenceIdeal.RefValue

open Cert.ReferenceIdeal Cert.ReferenceIdeal.Gen Cert.ReferenceIdeal.Value Cert.LstmCell
open Idealize.ShloMosaic Idealize.ShloMosaic.TcCoe Idealize.ShloMosaic.ValueIdx Idealize.SL.Sem

/-! ## Layout steps read at coordinates -/

section Layout
variable {α : Type}

/-- A [16384, 512] array given a leading unit axis and then copied along a leading axis of extent 4 reads, at (g, b, k),
    the array at (b, k). -/
theorem bcastRows_apply (x : S16384x512.Idx → α) (g : Fin 4) (b : Fin 16384) (k : Fin 512) :
    broadcastInDim S4x16384x512 ![0, 1, 2] bcast_S1x16384x512_S4x16384x512_0_1_2
      (broadcastInDim S1x16384x512 ![1, 2] bcast_S16384x512_S1x16384x512_1_2 x) (ix3 g b k) = x (ix2 b k) := by
  refine (broadcastInDim_apply _ _ _ (ix3 g b k) (ix3 (0 : Fin 1) b k) fun a => ?_).trans ?_
  · match a with
    | ⟨0, _⟩ => rfl
    | ⟨1, _⟩ => rfl
    | ⟨2, _⟩ => rfl
  · refine broadcastInDim_apply _ _ _ (ix3 (0 : Fin 1) b k) (ix2 b k) fun a => ?_
    match a with
    | ⟨0, _⟩ => rfl
    | ⟨1, _⟩ => rfl

/-- A [4, 512] parameter given a middle unit axis and then copied along the 16384 rows reads, at (g, b, q), the
    parameter at (g, q). -/
theorem bcastParam_apply (p : S4x512.Idx → α) (g : Fin 4) (b : Fin 16384) (q : Fin 512) :
    broadcastInDim S4x16384x512 ![0, 1, 2] bcast_S4x1x512_S4x16384x512_0_1_2
      (broadcastInDim S4x1x512 ![0, 2] bcast_S4x512_S4x1x512_0_2 p) (ix3 g b q) = p (ix2 g q) := by
  refine (broadcastInDim_apply _ _ _ (ix3 g b q) (ix3 g (0 : Fin 1) q) fun a => ?_).trans ?_
  · match a with
    | ⟨0, _⟩ => rfl
    | ⟨1, _⟩ => rfl
    | ⟨2, _⟩ => rfl
  · refine broadcastInDim_apply _ _ _ (ix3 g (0 : Fin 1) q) (ix2 g q) fun a => ?_
    match a with
    | ⟨0, _⟩ => rfl
    | ⟨1, _⟩ => rfl

/-- A [4, 16384] array given a trailing unit axis reads, at (g, b, u), the array at (g, b). -/
theorem col3_apply (x : S4x16384.Idx → α) (g : Fin 4) (b : Fin 16384) (u : Fin 1) :
    broadcastInDim S4x16384x1 ![0, 1] bcast_S4x16384_S4x16384x1_0_1 x (ix3 g b u) = x (ix2 g b) := by
  refine broadcastInDim_apply _ _ _ (ix3 g b u) (ix2 g b) fun a => ?_
  match a with
  | ⟨0, _⟩ => rfl
  | ⟨1, _⟩ => rfl

/-- A [4, 16384, 1] column copied along a trailing axis of extent 512 reads, at (g, b, q), the column at (g, b, 0). -/
theorem bcastCol3_apply (c : S4x16384x1.Idx → α) (g : Fin 4) (b : Fin 16384) (q : Fin 512) :
    broadcastInDim S4x16384x512 ![0, 1, 2] bcast_S4x16384x1_S4x16384x512_0_1_2 c (ix3 g b q) = c (ix3 g b (0 : Fin 1)) := by
  refine broadcastInDim_apply _ _ _ (ix3 g b q) (ix3 g b (0 : Fin 1)) fun a => ?_
  match a with
  | ⟨0, _⟩ => rfl
  | ⟨1, _⟩ => rfl
  | ⟨2, _⟩ => rfl

/-- A [16384] vector given a trailing unit axis reads, at (b, u), the vector at b. -/
theorem col2_apply (x : S16384.Idx → α) (b : Fin 16384) (u : Fin 1) :
    broadcastInDim S16384x1 ![0] bcast_S16384_S16384x1_0 x (ix2 b u) = x (ix1 b) := by
  refine broadcastInDim_apply _ _ _ (ix2 b u) (ix1 b) fun a => ?_
  match a with
  | ⟨0, _⟩ => rfl

/-- A [16384, 1] column copied along a trailing axis of extent 512 reads, at (b, q), the column at (b, 0). -/
theorem bcastCol2_apply (c : S16384x1.Idx → α) (b : Fin 16384) (q : Fin 512) :
    broadcastInDim S16384x512 ![0, 1] bcast_S16384x1_S16384x512_0_1 c (ix2 b q) = c (ix2 b (0 : Fin 1)) := by
  refine broadcastInDim_apply _ _ _ (ix2 b q) (ix2 b (0 : Fin 1)) fun a => ?_
  match a with
  | ⟨0, _⟩ => rfl
  | ⟨1, _⟩ => rfl

/-- A [512] parameter given a leading unit axis and then copied along the 16384 rows reads, at (b, q), the parameter
    at q. -/
theorem bcastRow_apply (p : S512.Idx → α) (b : Fin 16384) (q : Fin 512) :
    broadcastInDim S16384x512 ![0, 1] bcast_S1x512_S16384x512_0_1
      (broadcastInDim S1x512 ![1] bcast_S512_S1x512_1 p) (ix2 b q) = p (ix1 q) := by
  refine (broadcastInDim_apply _ _ _ (ix2 b q) (ix2 (0 : Fin 1) q) fun a => ?_).trans ?_
  · match a with
    | ⟨0, _⟩ => rfl
    | ⟨1, _⟩ => rfl
  · refine broadcastInDim_apply _ _ _ (ix2 (0 : Fin 1) q) (ix1 q) fun a => ?_
    match a with
    | ⟨0, _⟩ => rfl

end Layout

/-- A float word copied to every entry of an array reads, everywhere, the extended real the word encodes. -/
theorem splat_apply {T : Shape} (h : S_.BroadcastsInDim T ![]) (w : BitVec 32) (j : T.Idx) :
    broadcastInDim T ![] h (constant (F := Ideal) S_ .f32 w) j = Ideal.ofBits .f32 w :=
  broadcastInDim_scalar_apply h _ j

/-! ## Row sums -/

/-- The sum of a [4, 16384, 512] array along its last axis, started from the zero word, reads, at (g, b), the sum over n
    of the entries (g, b, n). -/
theorem rowSum3_apply (v : FVec Ideal S4x16384x512 .f32) (g : Fin 4) (b : Fin 16384) :
    Host.reduceAdd (F := Ideal) v (constant (F := Ideal) S_ .f32 0x00000000#32) reducesTo_S4x16384x512_S4x16384_d2 h_S_ (ix2 g b)
      = ∑ n : Fin 512, v (ix3 g b n) := by
  have hR : S4x16384x512.Reduces [2] S4x16384 := by decide
  refine (Ideal.hostReduceAdd_single reducesTo_S4x16384x512_S4x16384_d2 hR v _ (ix2 g b)).trans ?_
  refine (congrArg (· + _) Ideal.ofBits_zero_f32).trans ((zero_add _).trans ?_)
  exact Finset.sum_congr rfl fun k _ => congrArg v (funext fun ax => Fin.ext (by
    match ax with
    | ⟨0, _⟩ => rfl
    | ⟨1, _⟩ => rfl
    | ⟨2, _⟩ => rfl))

/-- The sum of a [16384, 512] array along its last axis, started from the zero word, reads, at b, the sum over n of the
    entries (b, n). -/
theorem rowSum2_apply (v : FVec Ideal S16384x512 .f32) (b : Fin 16384) :
    Host.reduceAdd (F := Ideal) v (constant (F := Ideal) S_ .f32 0x00000000#32) reducesTo_S16384x512_S16384_d1 h_S_ (ix1 b)
      = ∑ n : Fin 512, v (ix2 b n) := by
  have hR : S16384x512.Reduces [1] S16384 := by decide
  refine (Ideal.hostReduceAdd_single reducesTo_S16384x512_S16384_d1 hR v _ (ix1 b)).trans ?_
  refine (congrArg (· + _) Ideal.ofBits_zero_f32).trans ((zero_add _).trans ?_)
  exact Finset.sum_congr rfl fun k _ => congrArg v (funext fun ax => Fin.ext (by
    match ax with
    | ⟨0, _⟩ => rfl
    | ⟨1, _⟩ => rfl))

/-! ## The mean and the normalised value of the rows of a [4, 16384, 512] array -/

/-- The row sums, kept as a trailing unit axis and divided by the width word, read at (g, b, u) the mean of row
    (g, b). -/
theorem meanCol3_apply (v : FVec Ideal S4x16384x512 .f32) (g : Fin 4) (b : Fin 16384) (u : Fin 1) :
    Host.divf (F := Ideal)
      (broadcastInDim S4x16384x1 ![0, 1] bcast_S4x16384_S4x16384x1_0_1
        (Host.reduceAdd (F := Ideal) v (constant (F := Ideal) S_ .f32 0x00000000#32) reducesTo_S4x16384x512_S4x16384_d2 h_S_))
      (broadcastInDim S4x16384x1 ![] bcast_S_S4x16384x1 (constant (F := Ideal) S_ .f32 0x44000000#32)) (ix3 g b u)
      = mean (fun n => v (ix3 g b n)) :=
  congrArg₂ Ideal.div ((col3_apply _ g b u).trans (rowSum3_apply v g b)) (splat_apply _ _ _)

/-- An array minus its mean column copied along the rows reads, at (g, b, q), the entry minus the mean of its row. -/
theorem centred3_apply (v : FVec Ideal S4x16384x512 .f32) (μ : FVec Ideal S4x16384x1 .f32)
    (hμ : ∀ g b, μ (ix3 g b (0 : Fin 1)) = mean (fun n => v (ix3 g b n))) (g : Fin 4) (b : Fin 16384) (q : Fin 512) :
    subf v (broadcastInDim S4x16384x512 ![0, 1, 2] bcast_S4x16384x1_S4x16384x512_0_1_2 μ) (ix3 g b q)
      = v (ix3 g b q) - mean (fun n => v (ix3 g b n)) :=
  congrArg (v (ix3 g b q) - ·) ((bcastCol3_apply μ g b q).trans (hμ g b))

/-- The normalised, scaled and shifted array: with `μ` the mean column of `v` and `c` the centred array, the
    reference's term reads, at (g, b, q), the layer normalisation of row (g, b) of `v` with gate `g`'s affine rows. -/
theorem norm3_apply (v c : FVec Ideal S4x16384x512 .f32) (μ : FVec Ideal S4x16384x1 .f32) (γ β : FVec Ideal S4x512 .f32)
    (hμ : ∀ g b, μ (ix3 g b (0 : Fin 1)) = mean (fun n => v (ix3 g b n)))
    (hc : ∀ g b n, c (ix3 g b n) = v (ix3 g b n) - mean (fun n => v (ix3 g b n)))
    (g : Fin 4) (b : Fin 16384) (q : Fin 512) :
    addf (mulf (mulf (subf v (broadcastInDim S4x16384x512 ![0, 1, 2] bcast_S4x16384x1_S4x16384x512_0_1_2 μ))
        (broadcastInDim S4x16384x512 ![0, 1, 2] bcast_S4x16384x1_S4x16384x512_0_1_2
          (Host.rsqrt (F := Ideal) (addf
            (Host.divf (F := Ideal)
              (broadcastInDim S4x16384x1 ![0, 1] bcast_S4x16384_S4x16384x1_0_1
                (Host.reduceAdd (F := Ideal) (mulf c c) (constant (F := Ideal) S_ .f32 0x00000000#32) reducesTo_S4x16384x512_S4x16384_d2 h_S_))
              (broadcastInDim S4x16384x1 ![] bcast_S_S4x16384x1 (constant (F := Ideal) S_ .f32 0x44000000#32)))
            (broadcastInDim S4x16384x1 ![] bcast_S_S4x16384x1 (constant (F := Ideal) S_ .f32 0x3727C5AC#32))))))
        (broadcastInDim S4x16384x512 ![0, 1, 2] bcast_S4x1x512_S4x16384x512_0_1_2 (broadcastInDim S4x1x512 ![0, 2] bcast_S4x512_S4x1x512_0_2 γ)))
      (broadcastInDim S4x16384x512 ![0, 1, 2] bcast_S4x1x512_S4x16384x512_0_1_2 (broadcastInDim S4x1x512 ![0, 2] bcast_S4x512_S4x1x512_0_2 β))
      (ix3 g b q)
      = layerNorm (fun n => v (ix3 g b n)) (fun n => γ (ix2 g n)) (fun n => β (ix2 g n)) q := by
  have e1 := centred3_apply v μ hμ g b q
  have e2 : Host.reduceAdd (F := Ideal) (mulf c c) (constant (F := Ideal) S_ .f32 0x00000000#32) reducesTo_S4x16384x512_S4x16384_d2 h_S_ (ix2 g b)
      = sqDev (fun n => v (ix3 g b n)) (mean (fun n => v (ix3 g b n))) :=
    (rowSum3_apply (mulf c c) g b).trans (Finset.sum_congr rfl fun n _ => congrArg₂ (· * ·) (hc g b n) (hc g b n))
  have e3 := (bcastCol3_apply (Host.rsqrt (F := Ideal) (addf
            (Host.divf (F := Ideal)
              (broadcastInDim S4x16384x1 ![0, 1] bcast_S4x16384_S4x16384x1_0_1
                (Host.reduceAdd (F := Ideal) (mulf c c) (constant (F := Ideal) S_ .f32 0x00000000#32) reducesTo_S4x16384x512_S4x16384_d2 h_S_))
              (broadcastInDim S4x16384x1 ![] bcast_S_S4x16384x1 (constant (F := Ideal) S_ .f32 0x44000000#32)))
            (broadcastInDim S4x16384x1 ![] bcast_S_S4x16384x1 (constant (F := Ideal) S_ .f32 0x3727C5AC#32)))) g b q).trans
    (congrArg Ideal.rsqrt (congrArg₂ (· + ·)
      (congrArg₂ Ideal.div ((col3_apply _ g b (0 : Fin 1)).trans e2) (splat_apply bcast_S_S4x16384x1 0x44000000#32 _))
      (splat_apply bcast_S_S4x16384x1 0x3727C5AC#32 (ix3 g b (0 : Fin 1)))))
  exact congrArg₂ (· + ·) (congrArg₂ (· * ·) (congrArg₂ (· * ·) e1 e3) (bcastParam_apply γ g b q)) (bcastParam_apply β g b q)

/-! ## A gate cut out of the stack of pre-activations, and the logistic function as a quotient -/

/-- The slab of a [4, 16384, 512] array at gate `g`, with its leading unit axis dropped, reads, at (b, q), the array at
    (g, b, q). -/
theorem gate_apply {α : Type} (P : S4x16384x512.Idx → α) (g : Fin 4) (h : S4x16384x512.Slices ![g.val, 0, 0] S1x16384x512)
    (b : Fin 16384) (q : Fin 512) :
    shapeCast S16384x512 (extractStridedSlice S1x16384x512 ![g.val, 0, 0] P h) shapeCasts_S1x16384x512_S16384x512 (ix2 b q)
      = P (ix3 g b q) := by
  refine (shapeCast_1ab_ab_apply _ _ b q).trans ?_
  refine extractStridedSlice_apply _ P h (ix3 (0 : Fin 1) b q) (ix3 g b q) fun a => ?_
  match a with
  | ⟨0, _⟩ => rfl
  | ⟨1, _⟩ => exact (Nat.zero_add _).symm
  | ⟨2, _⟩ => exact (Nat.zero_add _).symm

/-- One over one plus the exponential of the negated entry is the logistic function of the entry. -/
theorem logistic_apply (x : FVec Ideal S16384x512 .f32) (j : S16384x512.Idx) :
    Host.divf (F := Ideal) (broadcastInDim S16384x512 ![] bcast_S_S16384x512 (constant (F := Ideal) S_ .f32 0x3F800000#32))
      (addf (broadcastInDim S16384x512 ![] bcast_S_S16384x512 (constant (F := Ideal) S_ .f32 0x3F800000#32))
        (Host.exp (F := Ideal) (Host.negf (F := Ideal) x))) j
      = Ideal.logistic (x j) := by
  show Ideal.div (Ideal.ofBits .f32 0x3F800000#32) (Ideal.ofBits .f32 0x3F800000#32 + Ideal.exp (-(x j)))
    = Ideal.div 1 (1 + Ideal.exp (-(x j)))
  rw [Ideal.ofBits_one_f32]

/-! ## The mean and the normalised value of the rows of a [16384, 512] array -/

/-- The row sums, kept as a trailing unit axis and divided by the width word, read at (b, u) the mean of row b. -/
theorem meanCol2_apply (v : FVec Ideal S16384x512 .f32) (b : Fin 16384) (u : Fin 1) :
    Host.divf (F := Ideal)
      (broadcastInDim S16384x1 ![0] bcast_S16384_S16384x1_0
        (Host.reduceAdd (F := Ideal) v (constant (F := Ideal) S_ .f32 0x00000000#32) reducesTo_S16384x512_S16384_d1 h_S_))
      (broadcastInDim S16384x1 ![] bcast_S_S16384x1 (constant (F := Ideal) S_ .f32 0x44000000#32)) (ix2 b u)
      = mean (fun n => v (ix2 b n)) :=
  congrArg₂ Ideal.div ((col2_apply _ b u).trans (rowSum2_apply v b)) (splat_apply _ _ _)

/-- An array minus its mean column copied along the rows reads, at (b, q), the entry minus the mean of its row. -/
theorem centred2_apply (v : FVec Ideal S16384x512 .f32) (μ : FVec Ideal S16384x1 .f32)
    (hμ : ∀ b, μ (ix2 b (0 : Fin 1)) = mean (fun n => v (ix2 b n))) (b : Fin 16384) (q : Fin 512) :
    subf v (broadcastInDim S16384x512 ![0, 1] bcast_S16384x1_S16384x512_0_1 μ) (ix2 b q)
      = v (ix2 b q) - mean (fun n => v (ix2 b n)) :=
  congrArg (v (ix2 b q) - ·) ((bcastCol2_apply μ b q).trans (hμ b))

/-- The normalised, scaled and shifted array: with `μ` the mean column of `v` and `c` the centred array, the
    reference's term reads, at (b, q), the layer normalisation of row b of `v` with the affine rows `γ`, `β`. -/
theorem norm2_apply (v c : FVec Ideal S16384x512 .f32) (μ : FVec Ideal S16384x1 .f32) (γ β : FVec Ideal S512 .f32)
    (hμ : ∀ b, μ (ix2 b (0 : Fin 1)) = mean (fun n => v (ix2 b n)))
    (hc : ∀ b n, c (ix2 b n) = v (ix2 b n) - mean (fun n => v (ix2 b n)))
    (b : Fin 16384) (q : Fin 512) :
    addf (mulf (mulf (subf v (broadcastInDim S16384x512 ![0, 1] bcast_S16384x1_S16384x512_0_1 μ))
        (broadcastInDim S16384x512 ![0, 1] bcast_S16384x1_S16384x512_0_1
          (Host.rsqrt (F := Ideal) (addf
            (Host.divf (F := Ideal)
              (broadcastInDim S16384x1 ![0] bcast_S16384_S16384x1_0
                (Host.reduceAdd (F := Ideal) (mulf c c) (constant (F := Ideal) S_ .f32 0x00000000#32) reducesTo_S16384x512_S16384_d1 h_S_))
              (broadcastInDim S16384x1 ![] bcast_S_S16384x1 (constant (F := Ideal) S_ .f32 0x44000000#32)))
            (broadcastInDim S16384x1 ![] bcast_S_S16384x1 (constant (F := Ideal) S_ .f32 0x3727C5AC#32))))))
        (broadcastInDim S16384x512 ![0, 1] bcast_S1x512_S16384x512_0_1 (broadcastInDim S1x512 ![1] bcast_S512_S1x512_1 γ)))
      (broadcastInDim S16384x512 ![0, 1] bcast_S1x512_S16384x512_0_1 (broadcastInDim S1x512 ![1] bcast_S512_S1x512_1 β))
      (ix2 b q)
      = layerNorm (fun n => v (ix2 b n)) (fun n => γ (ix1 n)) (fun n => β (ix1 n)) q := by
  have e1 := centred2_apply v μ hμ b q
  have e2 : Host.reduceAdd (F := Ideal) (mulf c c) (constant (F := Ideal) S_ .f32 0x00000000#32) reducesTo_S16384x512_S16384_d1 h_S_ (ix1 b)
      = sqDev (fun n => v (ix2 b n)) (mean (fun n => v (ix2 b n))) :=
    (rowSum2_apply (mulf c c) b).trans (Finset.sum_congr rfl fun n _ => congrArg₂ (· * ·) (hc b n) (hc b n))
  have e3 := (bcastCol2_apply (Host.rsqrt (F := Ideal) (addf
            (Host.divf (F := Ideal)
              (broadcastInDim S16384x1 ![0] bcast_S16384_S16384x1_0
                (Host.reduceAdd (F := Ideal) (mulf c c) (constant (F := Ideal) S_ .f32 0x00000000#32) reducesTo_S16384x512_S16384_d1 h_S_))
              (broadcastInDim S16384x1 ![] bcast_S_S16384x1 (constant (F := Ideal) S_ .f32 0x44000000#32)))
            (broadcastInDim S16384x1 ![] bcast_S_S16384x1 (constant (F := Ideal) S_ .f32 0x3727C5AC#32)))) b q).trans
    (congrArg Ideal.rsqrt (congrArg₂ (· + ·)
      (congrArg₂ Ideal.div ((col2_apply _ b (0 : Fin 1)).trans e2) (splat_apply bcast_S_S16384x1 0x44000000#32 _))
      (splat_apply bcast_S_S16384x1 0x3727C5AC#32 (ix2 b (0 : Fin 1)))))
  exact congrArg₂ (· + ·) (congrArg₂ (· * ·) (congrArg₂ (· * ·) e1 e3) (bcastRow_apply γ b q)) (bcastRow_apply β b q)

/-! ## The reference's named terms, read at coordinates -/

section Terms
variable (V0 : Valuation τ sig (Elt Ideal))

/-- The cell's parameters as the valuation holds them. -/
abbrev parOf : Params :=
  arrParams (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14))

/-- Batch row `b` of the data as the valuation holds it. -/
abbrev rowOf (b : Fin 16384) : RowIn :=
  arrRow (V0 (Proc.devRef .tc main_arg0)) (V0 (Proc.devRef .tc main_arg1)) (V0 (Proc.devRef .tc main_arg2)) (V0 (Proc.devRef .tc main_arg3)) (V0 (Proc.devRef .tc main_arg4)) b

/-- The input projection: the masked input row against gate `g`'s input weights. -/
theorem inProj_apply (g : Fin 4) (b : Fin 16384) (q : Fin 512) :
    res_main_v3 V0 (ix3 g b q) = proj (rowOf V0 b).x ((rowOf V0 b).mx g) ((parOf V0).W g) q := by
  unfold res_main_v3
  refine (dot_apply _ _ g b q).trans ?_
  exact Finset.sum_congr rfl fun k _ => congrArg (· * _) (congrArg (· * _) (bcastRows_apply _ g b k))

/-- The hidden projection: the masked hidden row against gate `g`'s hidden weights. -/
theorem hidProj_apply (g : Fin 4) (b : Fin 16384) (q : Fin 512) :
    res_main_v7 V0 (ix3 g b q) = proj (rowOf V0 b).h ((rowOf V0 b).mh g) ((parOf V0).U g) q := by
  unfold res_main_v7
  refine (dot_apply _ _ g b q).trans ?_
  exact Finset.sum_congr rfl fun k _ => congrArg (· * _) (congrArg (· * _) (bcastRows_apply _ g b k))

/-- The mean column of the input projection. -/
theorem inMean_apply (g : Fin 4) (b : Fin 16384) :
    res_main_v13 V0 (ix3 g b (0 : Fin 1)) = mean (fun n => res_main_v3 V0 (ix3 g b n)) := by
  unfold res_main_v13
  exact meanCol3_apply (res_main_v3 V0) g b 0

/-- The centred input projection. -/
theorem inCentred_apply (g : Fin 4) (b : Fin 16384) (n : Fin 512) :
    res_main_v15 V0 (ix3 g b n)
      = @HSub.hSub EReal EReal EReal _ (res_main_v3 V0 (ix3 g b n)) (mean (fun n => res_main_v3 V0 (ix3 g b n))) := by
  unfold res_main_v15
  exact centred3_apply (res_main_v3 V0) (res_main_v13 V0) (inMean_apply V0) g b n

/-- The mean column of the hidden projection. -/
theorem hidMean_apply (g : Fin 4) (b : Fin 16384) :
    res_main_v37 V0 (ix3 g b (0 : Fin 1)) = mean (fun n => res_main_v7 V0 (ix3 g b n)) := by
  unfold res_main_v37
  exact meanCol3_apply (res_main_v7 V0) g b 0

/-- The centred hidden projection. -/
theorem hidCentred_apply (g : Fin 4) (b : Fin 16384) (n : Fin 512) :
    res_main_v39 V0 (ix3 g b n)
      = @HSub.hSub EReal EReal EReal _ (res_main_v7 V0 (ix3 g b n)) (mean (fun n => res_main_v7 V0 (ix3 g b n))) := by
  unfold res_main_v39
  exact centred3_apply (res_main_v7 V0) (res_main_v37 V0) (hidMean_apply V0) g b n

/-- The stack of the four gates' pre-activations. -/
theorem pre_apply (g : Fin 4) (b : Fin 16384) (q : Fin 512) :
    res_main_v62 V0 (ix3 g b q) = preOf (parOf V0) (rowOf V0 b) g q := by
  have hx : (fun n => res_main_v3 V0 (ix3 g b n)) = proj (rowOf V0 b).x ((rowOf V0 b).mx g) ((parOf V0).W g) :=
    funext fun n => inProj_apply V0 g b n
  have hh : (fun n => res_main_v7 V0 (ix3 g b n)) = proj (rowOf V0 b).h ((rowOf V0 b).mh g) ((parOf V0).U g) :=
    funext fun n => hidProj_apply V0 g b n
  have ex := (norm3_apply (res_main_v3 V0) (res_main_v15 V0) (res_main_v13 V0) (V0 (Proc.devRef .tc main_arg9)) (V0 (Proc.devRef .tc main_arg10))
    (inMean_apply V0) (inCentred_apply V0) g b q).trans
    (congrArg (fun w => layerNorm w (fun n => (V0 (Proc.devRef .tc main_arg9)) (ix2 g n)) (fun n => (V0 (Proc.devRef .tc main_arg10)) (ix2 g n)) q) hx)
  have eh := (norm3_apply (res_main_v7 V0) (res_main_v39 V0) (res_main_v37 V0) (V0 (Proc.devRef .tc main_arg11)) (V0 (Proc.devRef .tc main_arg12))
    (hidMean_apply V0) (hidCentred_apply V0) g b q).trans
    (congrArg (fun w => layerNorm w (fun n => (V0 (Proc.devRef .tc main_arg11)) (ix2 g n)) (fun n => (V0 (Proc.devRef .tc main_arg12)) (ix2 g n)) q) hh)
  unfold res_main_v62
  exact congrArg₂ (· + ·) (congrArg₂ (· + ·) (congrArg₂ (· + ·) ex eh) (bcastParam_apply (V0 (Proc.devRef .tc main_arg7)) g b q))
    (bcastParam_apply (V0 (Proc.devRef .tc main_arg8)) g b q)

/-- The new cell state. -/
theorem cell_apply (b : Fin 16384) (q : Fin 512) :
    res_main_v92 V0 (ix2 b q) = cellRowOf (parOf V0) (rowOf V0 b) q := by
  unfold res_main_v92
  exact congrArg₂ (· + ·)
    (congrArg (· * _) ((logistic_apply _ (ix2 b q)).trans
      (congrArg Ideal.logistic ((gate_apply _ 1 _ b q).trans (pre_apply V0 1 b q)))))
    (congrArg₂ (· * ·)
      ((logistic_apply _ (ix2 b q)).trans (congrArg Ideal.logistic ((gate_apply _ 0 _ b q).trans (pre_apply V0 0 b q))))
      (congrArg Ideal.tanh ((gate_apply _ 2 _ b q).trans (pre_apply V0 2 b q))))

/-- The new cell state as one function of the argument arrays. -/
theorem cell_eq : res_main_v92 V0 = cellOut (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) := by
  funext j
  obtain ⟨b, q, rfl⟩ : ∃ (b : Fin 16384) (q : Fin 512), j = ix2 b q := ⟨j 0, j 1, eq_ix2 j⟩
  exact cell_apply V0 b q

/-- The mean column of the new cell state. -/
theorem cellMean_apply (b : Fin 16384) :
    res_main_v96 V0 (ix2 b (0 : Fin 1)) = mean (fun n => res_main_v92 V0 (ix2 b n)) := by
  unfold res_main_v96
  exact meanCol2_apply (res_main_v92 V0) b 0

/-- The centred new cell state. -/
theorem cellCentred_apply (b : Fin 16384) (n : Fin 512) :
    res_main_v98 V0 (ix2 b n)
      = @HSub.hSub EReal EReal EReal _ (res_main_v92 V0 (ix2 b n)) (mean (fun n => res_main_v92 V0 (ix2 b n))) := by
  unfold res_main_v98
  exact centred2_apply (res_main_v92 V0) (res_main_v96 V0) (cellMean_apply V0) b n

/-- The reference's term for the new hidden state, as a function of the valuation. -/
def hidTerm : FVec Ideal S16384x512 .f32 :=
  mulf (Host.divf (F := Ideal) (broadcastInDim S16384x512 ![] bcast_S_S16384x512 (constant (F := Ideal) S_ .f32 0x3F800000#32)) (addf (broadcastInDim S16384x512 ![] bcast_S_S16384x512 (constant (F := Ideal) S_ .f32 0x3F800000#32)) (Host.exp (F := Ideal) (Host.negf (F := Ideal) (shapeCast _ (extractStridedSlice S1x16384x512 ![3, 0, 0] (res_main_v62 V0) slices_S4x16384x512_S1x16384x512_3_0_0) shapeCasts_S1x16384x512_S16384x512))))) (Host.tanh (F := Ideal) (addf (mulf (mulf (subf (res_main_v92 V0) (broadcastInDim S16384x512 ![0, 1] bcast_S16384x1_S16384x512_0_1 (res_main_v96 V0))) (broadcastInDim S16384x512 ![0, 1] bcast_S16384x1_S16384x512_0_1 (Host.rsqrt (F := Ideal) (addf (Host.divf (F := Ideal) (broadcastInDim S16384x1 ![0] bcast_S16384_S16384x1_0 (Host.reduceAdd (F := Ideal) (mulf (res_main_v98 V0) (res_main_v98 V0)) (constant (F := Ideal) S_ .f32 0x00000000#32) reducesTo_S16384x512_S16384_d1 h_S_)) (broadcastInDim S16384x1 ![] bcast_S_S16384x1 (constant (F := Ideal) S_ .f32 0x44000000#32))) (broadcastInDim S16384x1 ![] bcast_S_S16384x1 (constant (F := Ideal) S_ .f32 0x3727C5AC#32)))))) (broadcastInDim S16384x512 ![0, 1] bcast_S1x512_S16384x512_0_1 (broadcastInDim S1x512 ![1] bcast_S512_S1x512_1 (V0 (Proc.devRef .tc main_arg13))))) (broadcastInDim S16384x512 ![0, 1] bcast_S1x512_S16384x512_0_1 (broadcastInDim S1x512 ![1] bcast_S512_S1x512_1 (V0 (Proc.devRef .tc main_arg14))))))

/-- The new hidden state. -/
theorem hid_apply (b : Fin 16384) (q : Fin 512) :
    hidTerm V0 (ix2 b q) = hidRowOf (parOf V0) (rowOf V0 b) q := by
  have hc : (fun n => res_main_v92 V0 (ix2 b n)) = cellRowOf (parOf V0) (rowOf V0 b) := funext fun n => cell_apply V0 b n
  have en := (norm2_apply (res_main_v92 V0) (res_main_v98 V0) (res_main_v96 V0) (V0 (Proc.devRef .tc main_arg13)) (V0 (Proc.devRef .tc main_arg14))
    (cellMean_apply V0) (cellCentred_apply V0) b q).trans
    (congrArg (fun w => layerNorm w (fun n => (V0 (Proc.devRef .tc main_arg13)) (ix1 n)) (fun n => (V0 (Proc.devRef .tc main_arg14)) (ix1 n)) q) hc)
  unfold hidTerm
  exact congrArg₂ (· * ·)
    ((logistic_apply _ (ix2 b q)).trans (congrArg Ideal.logistic ((gate_apply _ 3 _ b q).trans (pre_apply V0 3 b q))))
    (congrArg Ideal.tanh en)

/-- The new hidden state as one function of the argument arrays. -/
theorem hid_eq : hidTerm V0 = hidOut (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) := by
  funext j
  obtain ⟨b, q, rfl⟩ : ∃ (b : Fin 16384) (q : Fin 512), j = ix2 b q := ⟨j 0, j 1, eq_ix2 j⟩
  exact hid_apply V0 b q

end Terms

/-! ## The run -/

/-- The reference's run ends with its first result at `hidOut` and its second at `cellOut` of the argument arrays,
    the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v118) = hidOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))
      ∧ r.2.mem ((c : Thread nD τ).loc main_v92) = cellOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono
    (fun _ h c => ⟨(h c).1.trans (hid_eq (StableHlo.launchContents m c)), (h c).2.1.trans (cell_eq (StableHlo.launchContents m c)), (h c).2.2⟩)
    (Cert.ReferenceIdeal.Value.run (F := Ideal) m ρ)

end Cert.ReferenceIdeal.RefValue

end
-- ==== Proof.lean ====
/-
  One step of a layer-normalised LSTM cell with per-gate input masks: the tiled kernel against the batched reference.

  Both programs compute, for every batch row and every gate g,
      pre g = LN(Σ_k (x·mx_g)_k W_g[·,k]) + LN(Σ_k (h·mh_g)_k U_g[·,k]) + b_ih g + b_hh g,
  then c' = σ(pre 1)·c + σ(pre 0)·tanh(pre 2) and h' = σ(pre 3)·tanh(LN c'), LN the layer normalisation over the 512
  features (mean and variance by division by 512, the same ε word on both sides). The kernel handles 256 batch rows per
  grid point, multiplies by weight stacks the host transposed beforehand, and applies the logistic function as one
  operation; the reference contracts against the untransposed stacks in one batched product over the gate axis and
  spells the logistic function as 1 / (1 + exp(-·)). On the extended reals these are one function of the arguments
  (Proof/Spec.lean): a batch row's results depend on that row alone, the transposed stack read at (g, k, h) is the stack
  at (g, h, k), and the logistic function is that quotient by definition. No law of arithmetic beyond 0 + s = s is used,
  so finiteness of the inputs is never needed.

  Proof/KernelBlock.lean reads a block of the kernel's body at a row and a column, Proof/KernelArray.lean joins the 64
  blocks into the two result arrays, Proof/RefValue.lean reads the reference's run; here the two runs are set side by
  side.
-/
import proofs.«109891_j22170621182346_1_alg».proof.Defs
import proofs.«109891_j22170621182346_1_alg».proof.Proof.Gen.Kernel
import proofs.«109891_j22170621182346_1_alg».proof.Proof.Gen.Kernel.Skeleton
import proofs.«109891_j22170621182346_1_alg».proof.Proof.Gen.Kernel.Launch
import proofs.«109891_j22170621182346_1_alg».proof.Proof.Gen.Kernel.Points
import proofs.«109891_j22170621182346_1_alg».proof.Proof.Gen.Kernel.Frame
import proofs.«109891_j22170621182346_1_alg».proof.Proof.Gen.KernelIdeal
import proofs.«109891_j22170621182346_1_alg».proof.Proof.Gen.KernelIdeal.Skeleton
import proofs.«109891_j22170621182346_1_alg».proof.Proof.Gen.KernelIdeal.Launch
import proofs.«109891_j22170621182346_1_alg».proof.Proof.Gen.KernelIdeal.Points
import proofs.«109891_j22170621182346_1_alg».proof.Proof.Gen.KernelIdeal.Frame
import proofs.«109891_j22170621182346_1_alg».proof.Proof.Gen.ReferenceIdeal
import proofs.«109891_j22170621182346_1_alg».proof.Proof.Gen.Pre_finite_inputs
import proofs.«109891_j22170621182346_1_alg».proof.Proof.Gen.KernelIdeal.Value
import proofs.«109891_j22170621182346_1_alg».proof.Proof.Gen.ReferenceIdeal.Run
import proofs.«109891_j22170621182346_1_alg».proof.Proof.KernelArray
import proofs.«109891_j22170621182346_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- The kernel read on the extended reals runs and keeps its arguments. -/
theorem frame_kernelIdeal : Cert.frame_KernelIdeal := fun m ρ _ => Cert.KernelIdeal.Gen.frame m ρ

/-- The reference runs and keeps its arguments: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From arguments that agree, the kernel's two result arrays and the reference's two results are the same two
    functions of the arguments: the new hidden state and the new cell state. -/
theorem algebraic : Cert.algebraic_KernelIdeal_ReferenceIdeal := by
  intro m ρ m' ρ' _ hagree
  refine ⟨_, _, Cert.KernelIdeal.Array.run m ρ, ?_⟩
  refine (θ_run Cert.ReferenceIdeal.defs _ _).mono (fun r h c => ?_) (Cert.ReferenceIdeal.RefValue.run m' ρ')
  obtain ⟨h0, h1, hk⟩ := h c
  obtain ⟨a0, a1, a2, a3, a4, a5, a6, a7, a8, a9, a10, a11, a12, a13, a14⟩ := hagree c
  refine ⟨h0.trans ?_, h1.trans ?_, hk⟩
  · rw [a0, a1, a2, a3, a4, a5, a6, a7, a8, a9, a10, a11, a12, a13, a14]
  · rw [a0, a1, a2, a3, a4, a5, a6, a7, a8, a9, a10, a11, a12, a13, a14]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
